-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x800000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S5000x1 : Shape := ⟨2, ![5000, 1]⟩
abbrev S5000 : Shape := ⟨1, ![5000]⟩

abbrev nBuf : Space → Nat
  | .hbm => 46
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S100000x128, .f32⟩
  | .hbm, ⟨40, _⟩ => ⟨S800000x1, .i32⟩
  | .hbm, ⟨41, _⟩ => ⟨S100000x128, .f32⟩
  | .hbm, ⟨42, _⟩ => ⟨S100000x1, .i32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .i32⟩
  | .local _ .vmem, ⟨20, _⟩ => ⟨S5000x1, .i32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v2_1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S100000x1 : Shape := ⟨2, ![100000, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .i1⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S100000x128, .f32⟩
  | .hbm, ⟨61, _⟩ => ⟨S800000x1, .i32⟩
  | .hbm, ⟨62, _⟩ => ⟨S100000x128, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S_, .i32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x1, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_1 : Ref sig .tc := ⟨.hbm, 49, rfl⟩
abbrev main_v23 : Ref sig .tc := ⟨.hbm, 50, rfl⟩
abbrev main_v24 : Ref sig .tc := ⟨.hbm, 51, rfl⟩
abbrev main_c_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_cst_3 : Ref sig .tc := ⟨.hbm, 100, rfl⟩
abbrev main_call1_v13 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.EdgeAgg.lean ====
/-
  The edge aggregation both programs share, as one function of the message features `h` and the edge list.

  Row 0 of the edge list holds each edge's destination node `row`, row 1 its source `col`.  A negative index is
  wrapped once by the node count before it is used to read `h`; the message of an edge is `h[row] + h[col]`, and the
  messages are summed into the destination rows from a zero array (the destination index used as it stands).  Both
  programs print exactly these operations, so the proof never looks inside the gathers or the scatter: it only needs the
  two sides to apply this one function to equal message features.
-/
import Idealize.ShloMosaic.PureOps.Ideal

noncomputable section

namespace Cert.Layer

open Idealize.ShloMosaic

/-- Node features: 100000 nodes by 128 channels. -/
abbrev SNodes : Shape := ⟨2, ![100000, 128]⟩
/-- The edge list: two rows of 800000 node indices. -/
abbrev SEdges2 : Shape := ⟨2, ![2, 800000]⟩
abbrev SEdges1 : Shape := ⟨2, ![1, 800000]⟩
abbrev SEdge : Shape := ⟨1, ![800000]⟩
abbrev SEdgeCol : Shape := ⟨2, ![800000, 1]⟩
/-- One message per edge. -/
abbrev SMsgs : Shape := ⟨2, ![800000, 128]⟩
abbrev SScalar : Shape := ⟨0, ![]⟩

/-- A row of the edge list as a vector of node indices. -/
def edgeRow (off : Fin 2 → Nat) (hs : SEdges2.Slices off SEdges1) (hr : SEdges1.ShapeCasts SEdge) (ei : IVec SEdges2 32) :
    IVec SEdge 32 :=
  shapeCast SEdge (extractStridedSlice SEdges1 off ei hs) hr

/-- An index vector with its negative entries wrapped once by the node count, laid out as a column. -/
def wrapped (hb0 : SScalar.BroadcastsInDim SEdge ![]) (hb1 : SEdge.BroadcastsInDim SEdgeCol ![0]) (v : IVec SEdge 32) :
    IVec SEdgeCol 32 :=
  broadcastInDim SEdgeCol ![0] hb1
    (select (cmpi .slt v (broadcastInDim SEdge ![] hb0 (constantI SScalar 32 0#32)))
      (addi v (broadcastInDim SEdge ![] hb0 (constantI SScalar 32 100000#32))) v)

/-- The aggregated messages: for every edge `h[row] + h[col]`, summed into row `row` of a zero array. -/
def edgeAgg (G : GatherDims SNodes SEdgeCol SMsgs) (Sc : ScatterDims SNodes SEdgeCol SMsgs)
    (hs0 : SEdges2.Slices ![0, 0] SEdges1) (hs1 : SEdges2.Slices ![1, 0] SEdges1) (hr : SEdges1.ShapeCasts SEdge)
    (hb0 : SScalar.BroadcastsInDim SEdge ![]) (hb1 : SEdge.BroadcastsInDim SEdgeCol ![0])
    (hbz : SScalar.BroadcastsInDim SNodes ![])
    (h : FVec Ideal SNodes .f32) (ei : IVec SEdges2 32) : FVec Ideal SNodes .f32 :=
  Host.scatterAdd Sc (broadcastInDim SNodes ![] hbz (constant SScalar .f32 0x00000000#32))
    (broadcastInDim SEdgeCol ![0] hb1 (edgeRow ![0, 0] hs0 hr ei))
    (addf (Host.gather G h (wrapped hb0 hb1 (edgeRow ![0, 0] hs0 hr ei)))
      (Host.gather G h (wrapped hb0 hb1 (edgeRow ![1, 0] hs1 hr ei))))

end Cert.Layer

end
-- ==== Proof.HostReads.lean ====
/-
  What the host operations between the regions leave, read at the buffers the regions' windows take.

  Before the first region the two biases are reshaped to one-row matrices and nothing else changes.  Between the regions
  the edge list's two rows are cut out, negative indices wrapped, the message features gathered along both rows, added and
  summed into the destination rows (`Layer.edgeAgg`), the degrees reshaped to a column and the two LayerNorm parameters
  to one-row matrices; the first region's three results are not touched.
-/
import proofs.«106388_j74500502716662_1_alg».proof.Proof.Gen.KernelIdeal.Launch
import proofs.«106388_j74500502716662_1_alg».proof.Proof.EdgeAgg
import Idealize.ShloMosaic.Lib.StableHlo.Run

noncomputable section

namespace Cert.KernelIdeal.HostReads

open Idealize.ShloMosaic Idealize.ShloMosaic.TcCoe Idealize.SL.Sem Idealize.ShloMosaic.StableHlo
open Cert.KernelIdeal Cert.KernelIdeal.Gen

variable (X : Valuation τ sig (Elt Ideal))

/-! ## Before the first region -/

theorem pre_bfc : after (hostOps0 (F := Ideal)) X (Proc.devRef .tc main_v0)
    = fun i => shapeCast S1x128 (X (Proc.devRef .tc main_arg4)) shapeCasts_S128_S1x128 i := by
  after_results; rfl

theorem pre_brob : after (hostOps0 (F := Ideal)) X (Proc.devRef .tc main_v1)
    = fun i => shapeCast S1x128 (X (Proc.devRef .tc main_arg7)) shapeCasts_S128_S1x128 i := by
  after_results; rfl

theorem pre_x : after (hostOps0 (F := Ideal)) X (Proc.devRef .tc main_arg0) = X (Proc.devRef .tc main_arg0) := by
  after_results
theorem pre_Wfc : after (hostOps0 (F := Ideal)) X (Proc.devRef .tc main_arg3) = X (Proc.devRef .tc main_arg3) := by
  after_results
theorem pre_Wrate : after (hostOps0 (F := Ideal)) X (Proc.devRef .tc main_arg5) = X (Proc.devRef .tc main_arg5) := by
  after_results
theorem pre_Wrob : after (hostOps0 (F := Ideal)) X (Proc.devRef .tc main_arg6) = X (Proc.devRef .tc main_arg6) := by
  after_results
theorem pre_edges : after (hostOps0 (F := Ideal)) X (Proc.devRef .tc main_arg1) = X (Proc.devRef .tc main_arg1) := by
  after_results
theorem pre_deg : after (hostOps0 (F := Ideal)) X (Proc.devRef .tc main_arg2) = X (Proc.devRef .tc main_arg2) := by
  after_results
theorem pre_lng : after (hostOps0 (F := Ideal)) X (Proc.devRef .tc main_arg8) = X (Proc.devRef .tc main_arg8) := by
  after_results
theorem pre_lnb : after (hostOps0 (F := Ideal)) X (Proc.devRef .tc main_arg9) = X (Proc.devRef .tc main_arg9) := by
  after_results

/-! ## Between the regions -/

/-- The aggregated messages, from the message features and the edge list as the stretch finds them. -/
abbrev agg (h : FVec Ideal S100000x128 .f32) (ei : IVec S2x800000 32) : FVec Ideal S100000x128 .f32 :=
  Layer.edgeAgg gather_S100000x128_S800000x1_S800000x128_1_0_n_n_0_1_1128 scatter_S100000x128_S800000x1_S800000x128_1_0_0_1
    slices_S2x800000_S1x800000_0_0 slices_S2x800000_S1x800000_1_0 shapeCasts_S1x800000_S800000 bcast_S_S800000
    bcast_S800000_S800000x1_0 bcast_S_S100000x128 h ei

theorem mid_agg : after (hostOps1 (F := Ideal)) X (Proc.devRef .tc main_v24)
    = agg (X (Proc.devRef .tc main_v2_0)) (X (Proc.devRef .tc main_arg1)) := by
  after_results_simp; rfl

theorem mid_deg : after (hostOps1 (F := Ideal)) X (Proc.devRef .tc main_v25)
    = fun i => shapeCast S100000x1 (X (Proc.devRef .tc main_arg2)) shapeCasts_S100000_S100000x1 i := by
  after_results_simp; rfl

theorem mid_lng : after (hostOps1 (F := Ideal)) X (Proc.devRef .tc main_v26)
    = fun i => shapeCast S1x128 (X (Proc.devRef .tc main_arg8)) shapeCasts_S128_S1x128 i := by
  after_results_simp; rfl

theorem mid_lnb : after (hostOps1 (F := Ideal)) X (Proc.devRef .tc main_v27)
    = fun i => shapeCast S1x128 (X (Proc.devRef .tc main_arg9)) shapeCasts_S128_S1x128 i := by
  after_results_simp; rfl

theorem mid_rate : after (hostOps1 (F := Ideal)) X (Proc.devRef .tc main_v2_1) = X (Proc.devRef .tc main_v2_1) := by
  after_results_simp
theorem mid_gam : after (hostOps1 (F := Ideal)) X (Proc.devRef .tc main_v2_2) = X (Proc.devRef .tc main_v2_2) := by
  after_results_simp

end Cert.KernelIdeal.HostReads

end
-- ==== Proof.Layer.lean ====
/-
  The layer, row by row, over the extended reals.

  Every stage of both programs acts on one node's row of 128 channels at a time, except the edge aggregation in the
  middle.  A row `xr` of the node features gives

  * the message features      `h    = xr · W_fc + b_fc`,
  * the rate                  `rate = softplus (xr · W_rate) + ε`, with softplus in the overflow-safe form
                              `max r 0 + log1p (exp (−|r − 0|))`,
  * the robustness term       `γ    = xr · W_rob + b_rob`;

  and, from a node's rows of `rate`, of the aggregated messages `agg` and of `γ`, its degree `d` and the two
  LayerNorm parameters,

      y    = (rate · agg + γ) / ((1 + rate · d) + ε)
      μ    = (Σ y) / 128,      σ² = (Σ (y − μ)²) / 128
      out  = (y − μ) · rsqrt (σ² + ε') · ln_γ + ln_β .

  The float literals stay the binary words the programs carry (`0x38D1B717` is ε, `0x3727C5AC` is ε',
  `0x43000000` is 128, `0x3F800000` is 1); only the zero word is ever evaluated.
-/
import Idealize.ShloMosaic.PureOps.Ideal.Laws

noncomputable section

namespace Cert.Layer

open Idealize.ShloMosaic

/-- The zero word, as both programs spell it. -/
abbrev z : EReal := Ideal.ofBits .f32 0x00000000#32
/-- ε of the rate and of the denominator. -/
abbrev eps : EReal := Ideal.ofBits .f32 0x38D1B717#32
/-- ε' of the LayerNorm. -/
abbrev lnEps : EReal := Ideal.ofBits .f32 0x3727C5AC#32
/-- The channel count 128. -/
abbrev width : EReal := Ideal.ofBits .f32 0x43000000#32
/-- The literal 1. -/
abbrev one : EReal := Ideal.ofBits .f32 0x3F800000#32

/-- A row times a 128×128 matrix: entry `q` is `Σ k, xr k · W k q`. -/
def rowMat (xr : Fin 128 → EReal) (W : Fin 128 → Fin 128 → EReal) (q : Fin 128) : EReal :=
  ∑ k : Fin 128, xr k * W k q

/-- An affine row: `xr · W + b`. -/
def affineRow (xr : Fin 128 → EReal) (W : Fin 128 → Fin 128 → EReal) (b : Fin 128 → EReal) (q : Fin 128) : EReal :=
  rowMat xr W q + b q

/-- softplus in the overflow-safe form: `max r 0 + log1p (exp (−|r − 0|))`. -/
def softplus (r : EReal) : EReal :=
  max r z + Ideal.log1p (Ideal.exp (-(max (r - z) (-(r - z)))))

/-- The rate row: `softplus (xr · W) + ε`. -/
def rateRow (xr : Fin 128 → EReal) (W : Fin 128 → Fin 128 → EReal) (q : Fin 128) : EReal :=
  softplus (rowMat xr W q) + eps

/-- The quotient `y` of a node's row, before normalisation. -/
def yRow (rate agg gam : Fin 128 → EReal) (d : EReal) (q : Fin 128) : EReal :=
  Ideal.div (rate q * agg q + gam q) ((one + rate q * d) + eps)

/-- The mean of a row of 128 entries: `(Σ y) / 128`. -/
def meanRow (y : Fin 128 → EReal) : EReal := Ideal.div (∑ k : Fin 128, y k) width

/-- The variance of a row about its mean: `(Σ (y − μ)²) / 128`. -/
def varRow (y : Fin 128 → EReal) : EReal :=
  Ideal.div (∑ k : Fin 128, (y k - meanRow y) * (y k - meanRow y)) width

/-- The normalised row: `(y − μ) · rsqrt (σ² + ε') · ln_γ + ln_β`. -/
def normRow (rate agg gam : Fin 128 → EReal) (d : EReal) (lng lnb : Fin 128 → EReal) (q : Fin 128) : EReal :=
  (yRow rate agg gam d q - meanRow (yRow rate agg gam d)) * Ideal.rsqrt (varRow (yRow rate agg gam d) + lnEps) * lng q
    + lnb q

end Cert.Layer

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Region0Pay.lean ====
/-
  The projection region's three results, one entry at a time.

  Each result block is a function of the block of node features and of whole parameter arrays; at the entry in row
  `p`, channel `q` it is the row function of `Layer` applied to row `p` of the feature block: the matrix product
  into a zero accumulator is `Σ k, x (p, k) · W (k, q)`, a one-row bias spread over the rows reads its entry `q`,
  and the softplus is the overflow-safe form whose guard `v ≠ v` is never taken on the extended reals.
-/
import proofs.«106388_j74500502716662_1_alg».proof.Proof.Gen.KernelIdeal.Skeleton
import proofs.«106388_j74500502716662_1_alg».proof.Proof.Layer
import proofs.«106388_j74500502716662_1_alg».proof.Proof.LibRowOps
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx
open Cert.KernelIdeal Cert.KernelIdeal.Gen

/-- A block of 5000 rows times a 128×128 matrix, into the zero accumulator, read at `(p, q)`: row `p` times column `q`. -/
theorem blockMat_apply (x0 : FVec Ideal S5000x128 .f32) (x1 : FVec Ideal S128x128 .f32) (p : Fin 5000) (q : Fin 128) :
    Idealize.ShloMosaic.matmul dot_S5000x128_S128x128_S5000x128_1_0_0_1_n_n none x0 x1 (constant S5000x128 .f32 0x00000000#32) (ix2 p q)
      = Layer.rowMat (fun k => x0 (ix2 p k)) (fun k q => x1 (ix2 k q)) q :=
  RowOps.matmul_apply dot_S5000x128_S128x128_S5000x128_1_0_0_1_n_n_wf none x0 x1 p q

/-- The message features' payload at `(p, q)`: the affine row of row `p`. -/
theorem pay1_apply (x0 : Vec Ideal S5000x128 .f32) (x1 : Vec Ideal S128x128 .f32) (x2 : Vec Ideal S1x128 .f32) (p : Fin 5000) (q : Fin 128) :
    k0_pay1 x0 x1 x2 (ix2 p q)
      = Layer.affineRow (fun k => x0 (ix2 p k)) (fun k q => x1 (ix2 k q)) (fun q => x2 (ix2 (0 : Fin 1) q)) q := by
  unfold k0_pay1
  rw [addf_apply, blockMat_apply, RowOps.rowParam_spread_apply]
  rfl

/-- The robustness term's payload at `(p, q)`: the affine row of row `p`. -/
theorem pay3_apply (x0 : Vec Ideal S5000x128 .f32) (x4 : Vec Ideal S128x128 .f32) (x5 : Vec Ideal S1x128 .f32) (p : Fin 5000) (q : Fin 128) :
    k0_pay3 x0 x4 x5 (ix2 p q)
      = Layer.affineRow (fun k => x0 (ix2 p k)) (fun k q => x4 (ix2 k q)) (fun q => x5 (ix2 (0 : Fin 1) q)) q := by
  unfold k0_pay3
  rw [addf_apply, blockMat_apply, RowOps.rowParam_spread_apply]
  rfl

/-- On the extended reals nothing differs from itself: the guard `v ≠ v` is the cleared bit. -/
theorem cmp_one_self (v : EReal) : Ideal.cmp .one v v = 0#1 := by
  unfold Ideal.cmp
  simp

/-- The overflow-safe softplus as the region spells it, with its never-taken guard, is `Layer.softplus`. -/
theorem softplus_guarded (r : EReal) :
    Scalar.select (Ideal.cmp .one (r - Layer.z) (r - Layer.z)) (r + Layer.z)
        (max r Layer.z + Ideal.log1p (Ideal.exp (Layer.z - max (r - Layer.z) (-(r - Layer.z)))))
      = Layer.softplus r := by
  rw [cmp_one_self, select_zero]
  unfold Layer.softplus
  congr 3
  show Ideal.ofBits .f32 0x00000000#32 - _ = _
  rw [Ideal.ofBits_zero_f32, zero_sub]

/-- The rate's payload at `(p, q)`: softplus of row `p` times column `q`, plus ε. -/
theorem pay2_apply (x0 : Vec Ideal S5000x128 .f32) (x3 : Vec Ideal S128x128 .f32) (p : Fin 5000) (q : Fin 128) :
    k0_pay2 x0 x3 (ix2 p q) = Layer.rateRow (fun k => x0 (ix2 p k)) (fun k q => x3 (ix2 k q)) q := by
  unfold k0_pay2
  refine (congrArg (· + Layer.eps) (softplus_guarded
    (Idealize.ShloMosaic.matmul (F := Ideal) dot_S5000x128_S128x128_S5000x128_1_0_0_1_n_n none x0 x3 (constant S5000x128 .f32 0x00000000#32) (ix2 p q)))).trans ?_
  rw [blockMat_apply]
  rfl

end Cert.KernelIdeal.RegionValue

end
-- ==== Proof.Region0.lean ====
/-
  The projection region: what its three result arrays hold once all twenty row blocks are written back.

  Block `t` of each result is a function of block `t` of the node features and of the whole weight matrices, and each
  row of it depends on that one row of the features only; so the array, index by index, is the row function of
  `Layer` applied to the node's own row: `h = x·W_fc + b_fc`, `rate = softplus (x·W_rate) + ε`, `γ = x·W_rob + b_rob`.
  The biases arrive as one-row matrices (a reshape the host did before the region).

  Row `p` of block `t` is row `5000·t + p` of the array, for the node features and for the three results alike; the
  weight matrices and the one-row biases are staged whole at every point. The twenty blocks tile the 100000 rows:
  row `r` lies in block `r / 5000`.
-/
import proofs.«106388_j74500502716662_1_alg».proof.Proof.Gen.KernelIdeal.Frame
import proofs.«106388_j74500502716662_1_alg».proof.Proof.Layer
import proofs.«106388_j74500502716662_1_alg».proof.Proof.LibRowOps
import proofs.«106388_j74500502716662_1_alg».proof.Proof.Region0Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered
variable (V : (c : Dev nD) → (b : Ref sig .tc) → Buf (Elt Ideal) ((c : Thread nD τ).loc b))

/-- The message features `h`, index by index, from the arrays as the region finds them. -/
def hArr (c : Dev nD) : S100000x128.Idx → EReal := fun i =>
  Layer.affineRow (fun k => V c main_arg0 (ix2 (i 0) k)) (fun k q => V c main_arg3 (ix2 k q)) (fun q => V c main_v0 (ix2 (0 : Fin 1) q)) (i 1)

/-- The rate, index by index. -/
def rateArr (c : Dev nD) : S100000x128.Idx → EReal := fun i =>
  Layer.rateRow (fun k => V c main_arg0 (ix2 (i 0) k)) (fun k q => V c main_arg5 (ix2 k q)) (i 1)

/-- The robustness term `γ`, index by index. -/
def gamArr (c : Dev nD) : S100000x128.Idx → EReal := fun i =>
  Layer.affineRow (fun k => V c main_arg0 (ix2 (i 0) k)) (fun k q => V c main_arg6 (ix2 k q)) (fun q => V c main_v1 (ix2 (0 : Fin 1) q)) (i 1)

/-! ## Where each window's block sits -/

theorem zeroOff : (![0, 0] : Fin 2 → Nat) = fun _ => 0 := funext fun a => by fin_cases a <;> rfl

/-- The block indices, decided over the twenty grid points: the node features' and the three results' block at point
    `t` is block `(t, 0)`; the five parameter windows' is `(0, 0)`. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ t.val < 20 :=
  (by decide +kernel : ∀ t : Fin grid0.N, _)

/-- Every one of the twenty blocks is some point's. -/
theorem pointOf : ∀ b : Fin 20, ∃ t : Fin cfg0.N, t.val = b.val :=
  (by decide +kernel : ∀ b : Fin 20, ∃ t : Fin grid0.N, t.val = b.val)

/-! ## The input blocks, entry by entry -/

/-- Row `p` of the node features' block at point `t` is row `5000·t + p` of the array. -/
theorem featBlock (c : Dev nD) (t : Fin cfg0.N) (p : Fin 5000) (k : Fin 128) (r : Fin 100000) (hr : r.val = t.val * 5000 + p.val) :
    iblk0 V c 0 t (ix2 p k) = V c main_arg0 (ix2 r k) := by
  obtain ⟨e0, e1, -⟩ := blockIdx t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The message weights are staged whole. -/
theorem wfcBlock (c : Dev nD) (t : Fin cfg0.N) (k q : Fin 128) : iblk0 V c 1 t (ix2 k q) = V c main_arg3 (ix2 k q) := by
  obtain ⟨-, -, e0, e1, -⟩ := blockIdx t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The message bias, a one-row matrix, is staged whole. -/
theorem bfcBlock (c : Dev nD) (t : Fin cfg0.N) (q : Fin 128) : iblk0 V c 2 t (ix2 (0 : Fin 1) q) = V c main_v0 (ix2 (0 : Fin 1) q) := by
  obtain ⟨-, -, -, -, e0, e1, -⟩ := blockIdx t
  show V c main_v0 (((cfg0.win 2).blk t).view.emb (ix2 (0 : Fin 1) q)) = V c main_v0 (ix2 (0 : Fin 1) q)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-! ## The message features -/

/-- Row `p` of the result block at point `t` is row `5000·t + p` of the array. -/
theorem hBlockRow (t : Fin cfg0.N) (p : Fin 5000) (q : Fin 128) (r : Fin 100000) (hr : r.val = t.val * 5000 + p.val) :
    ((cfg0.win 6).blk t).view.emb (ix2 p q) = ix2 r q := by
  obtain ⟨-, -, -, -, -, -, -, -, -, -, -, -, e0, e1, -⟩ := blockIdx t
  refine funext fun a => Fin.ext ?_
  match a with
  | ⟨0, _⟩ => show win0_6.index t (0 : Fin 2) * 5000 + 1 * p.val = r.val; omega
  | ⟨1, _⟩ => show win0_6.index t (1 : Fin 2) * 128 + 1 * q.val = q.val; omega

/-- What point `t` writes back to the message features is block `t` of `hArr`. -/
theorem hFlushed (c : Dev nD) (t : Fin cfg0.N) :
    (dat0 (F := Ideal) V c).flushed 6 t = ((cfg0.win 6).blk t).view.read (Elt Ideal) (hArr V c) := by
  show (cfg0.win 6).cut (grid0.coords t) ((dat0 V c).after 6 t) = _
  rw [after0_6]
  unfold out0_6
  rw [View.canon_unit_zero zeroOff]
  simp only [View.ld_unit_zero (S := S5000x128) zeroOff, View.ld_unit_zero (S := S128x128) zeroOff, View.ld_unit_zero (S := S1x128) zeroOff]
  refine funext fun (j : S5000x128.Idx) => ?_
  obtain ⟨p, q, rfl⟩ : ∃ (p : Fin 5000) (q : Fin 128), j = ix2 p q := ⟨j 0, j 1, eq_ix2 j⟩
  have ht : t.val < 20 := (blockIdx t).2.2.2.2.2.2.2.2.2.2.2.2.2.2.2.2.2.2
  have hx : (cfg0.win 6).xinj (grid0.coords t) (ix2 p q) = ix2 p q := funext fun a => Fin.ext (by
    match a with
    | ⟨0, _⟩ => rfl
    | ⟨1, _⟩ => rfl)
  show k0_pay1 (iblk0 V c 0 t) (iblk0 V c 1 t) (iblk0 V c 2 t) ((cfg0.win 6).xinj (grid0.coords t) (ix2 p q))
    = hArr V c (((cfg0.win 6).blk t).view.emb (ix2 p q))
  rw [hx, hBlockRow t p q ⟨t.val * 5000 + p.val, by omega⟩ rfl]
  refine (pay1_apply (iblk0 V c 0 t) (iblk0 V c 1 t) (iblk0 V c 2 t) p q).trans ?_
  show _ = Layer.affineRow (fun k => V c main_arg0 (ix2 (⟨t.val * 5000 + p.val, by omega⟩ : Fin 100000) k)) (fun k q => V c main_arg3 (ix2 k q))
    (fun q => V c main_v0 (ix2 (0 : Fin 1) q)) q
  simp only [featBlock V c t p _ ⟨t.val * 5000 + p.val, by omega⟩ rfl, wfcBlock V c t, bfcBlock V c t]

/-- An index of the array is in point `t`'s block iff each coordinate is in the block's range on its axis. -/
theorem hMemBlk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v2_0).slice (win0_6.rect t)).set ↔ _
  rw [View.set_slice_whole, Rect.mem_set_unit]
  exact Iff.rfl

/-- The twenty blocks tile the array: row `r` lies in block `r / 5000`. -/
theorem hCover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := pointOf ⟨(i 0).val / 5000, by omega⟩
  have ht' : t.val = (i 0).val / 5000 := ht
  obtain ⟨-, -, -, -, -, -, -, -, -, -, -, -, e0, e1, -⟩ := blockIdx t
  refine ⟨t, flush0_6 t, ?_⟩
  rw [hMemBlk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

theorem final0_6 (c : Dev nD) : (dat0 (F := Ideal) V c).arrAt 6 cfg0.N = hArr V c :=
  (dat0 (F := Ideal) V c).arrAt_eq_of_cover 6 (hArr V c) (fun t _ => hFlushed V c t) hCover

/-! ## The rate -/

/-- The rate weights are staged whole. -/
theorem wrateBlock (c : Dev nD) (t : Fin cfg0.N) (k q : Fin 128) : iblk0 V c 3 t (ix2 k q) = V c main_arg5 (ix2 k q) := by
  obtain ⟨-, -, -, -, -, -, e0, e1, -⟩ := blockIdx t
  show V c main_arg5 (((cfg0.win 3).blk t).view.emb (ix2 k q)) = V c main_arg5 (ix2 k q)
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Row `p` of the result block at point `t` is row `5000·t + p` of the array. -/
theorem rateBlockRow (t : Fin cfg0.N) (p : Fin 5000) (q : Fin 128) (r : Fin 100000) (hr : r.val = t.val * 5000 + p.val) :
    ((cfg0.win 7).blk t).view.emb (ix2 p q) = ix2 r q := by
  obtain ⟨-, -, -, -, -, -, -, -, -, -, -, -, -, -, e0, e1, -⟩ := blockIdx t
  refine funext fun a => Fin.ext ?_
  match a with
  | ⟨0, _⟩ => show win0_7.index t (0 : Fin 2) * 5000 + 1 * p.val = r.val; omega
  | ⟨1, _⟩ => show win0_7.index t (1 : Fin 2) * 128 + 1 * q.val = q.val; omega

/-- What point `t` writes back to the rate is block `t` of `rateArr`. -/
theorem rateFlushed (c : Dev nD) (t : Fin cfg0.N) :
    (dat0 (F := Ideal) V c).flushed 7 t = ((cfg0.win 7).blk t).view.read (Elt Ideal) (rateArr V c) := by
  show (cfg0.win 7).cut (grid0.coords t) ((dat0 V c).after 7 t) = _
  rw [after0_7]
  unfold out0_7
  rw [View.canon_unit_zero zeroOff]
  simp only [View.ld_unit_zero (S := S5000x128) zeroOff, View.ld_unit_zero (S := S128x128) zeroOff]
  refine funext fun (j : S5000x128.Idx) => ?_
  obtain ⟨p, q, rfl⟩ : ∃ (p : Fin 5000) (q : Fin 128), j = ix2 p q := ⟨j 0, j 1, eq_ix2 j⟩
  have ht : t.val < 20 := (blockIdx t).2.2.2.2.2.2.2.2.2.2.2.2.2.2.2.2.2.2
  have hx : (cfg0.win 7).xinj (grid0.coords t) (ix2 p q) = ix2 p q := funext fun a => Fin.ext (by
    match a with
    | ⟨0, _⟩ => rfl
    | ⟨1, _⟩ => rfl)
  show k0_pay2 (iblk0 V c 0 t) (iblk0 V c 3 t) ((cfg0.win 7).xinj (grid0.coords t) (ix2 p q))
    = rateArr V c (((cfg0.win 7).blk t).view.emb (ix2 p q))
  rw [hx, rateBlockRow t p q ⟨t.val * 5000 + p.val, by omega⟩ rfl]
  refine (pay2_apply (iblk0 V c 0 t) (iblk0 V c 3 t) p q).trans ?_
  show _ = Layer.rateRow (fun k => V c main_arg0 (ix2 (⟨t.val * 5000 + p.val, by omega⟩ : Fin 100000) k)) (fun k q => V c main_arg5 (ix2 k q)) q
  simp only [featBlock V c t p _ ⟨t.val * 5000 + p.val, by omega⟩ rfl, wrateBlock V c t]

/-- An index of the array is in point `t`'s block iff each coordinate is in the block's range on its axis. -/
theorem rateMemBlk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v2_1).slice (win0_7.rect t)).set ↔ _
  rw [View.set_slice_whole, Rect.mem_set_unit]
  exact Iff.rfl

/-- The twenty blocks tile the array: row `r` lies in block `r / 5000`. -/
theorem rateCover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := pointOf ⟨(i 0).val / 5000, by omega⟩
  have ht' : t.val = (i 0).val / 5000 := ht
  obtain ⟨-, -, -, -, -, -, -, -, -, -, -, -, -, -, e0, e1, -⟩ := blockIdx t
  refine ⟨t, flush0_7 t, ?_⟩
  rw [rateMemBlk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

theorem final0_7 (c : Dev nD) : (dat0 (F := Ideal) V c).arrAt 7 cfg0.N = rateArr V c :=
  (dat0 (F := Ideal) V c).arrAt_eq_of_cover 7 (rateArr V c) (fun t _ => rateFlushed V c t) rateCover

/-! ## The robustness term -/

/-- The robustness weights are staged whole. -/
theorem wrobBlock (c : Dev nD) (t : Fin cfg0.N) (k q : Fin 128) : iblk0 V c 4 t (ix2 k q) = V c main_arg6 (ix2 k q) := by
  obtain ⟨-, -, -, -, -, -, -, -, e0, e1, -⟩ := blockIdx t
  show V c main_arg6 (((cfg0.win 4).blk t).view.emb (ix2 k q)) = V c main_arg6 (ix2 k q)
  refine congrArg (V c main_arg6) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The robustness bias, a one-row matrix, is staged whole. -/
theorem brobBlock (c : Dev nD) (t : Fin cfg0.N) (q : Fin 128) : iblk0 V c 5 t (ix2 (0 : Fin 1) q) = V c main_v1 (ix2 (0 : Fin 1) q) := by
  obtain ⟨-, -, -, -, -, -, -, -, -, -, e0, e1, -⟩ := blockIdx t
  show V c main_v1 (((cfg0.win 5).blk t).view.emb (ix2 (0 : Fin 1) q)) = V c main_v1 (ix2 (0 : Fin 1) q)
  refine congrArg (V c main_v1) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Row `p` of the result block at point `t` is row `5000·t + p` of the array. -/
theorem gamBlockRow (t : Fin cfg0.N) (p : Fin 5000) (q : Fin 128) (r : Fin 100000) (hr : r.val = t.val * 5000 + p.val) :
    ((cfg0.win 8).blk t).view.emb (ix2 p q) = ix2 r q := by
  obtain ⟨-, -, -, -, -, -, -, -, -, -, -, -, -, -, -, -, e0, e1, -⟩ := blockIdx t
  refine funext fun a => Fin.ext ?_
  match a with
  | ⟨0, _⟩ => show win0_8.index t (0 : Fin 2) * 5000 + 1 * p.val = r.val; omega
  | ⟨1, _⟩ => show win0_8.index t (1 : Fin 2) * 128 + 1 * q.val = q.val; omega

/-- What point `t` writes back to the robustness term is block `t` of `gamArr`. -/
theorem gamFlushed (c : Dev nD) (t : Fin cfg0.N) :
    (dat0 (F := Ideal) V c).flushed 8 t = ((cfg0.win 8).blk t).view.read (Elt Ideal) (gamArr V c) := by
  show (cfg0.win 8).cut (grid0.coords t) ((dat0 V c).after 8 t) = _
  rw [after0_8]
  unfold out0_8
  rw [View.canon_unit_zero zeroOff]
  simp only [View.ld_unit_zero (S := S5000x128) zeroOff, View.ld_unit_zero (S := S128x128) zeroOff, View.ld_unit_zero (S := S1x128) zeroOff]
  refine funext fun (j : S5000x128.Idx) => ?_
  obtain ⟨p, q, rfl⟩ : ∃ (p : Fin 5000) (q : Fin 128), j = ix2 p q := ⟨j 0, j 1, eq_ix2 j⟩
  have ht : t.val < 20 := (blockIdx t).2.2.2.2.2.2.2.2.2.2.2.2.2.2.2.2.2.2
  have hx : (cfg0.win 8).xinj (grid0.coords t) (ix2 p q) = ix2 p q := funext fun a => Fin.ext (by
    match a with
    | ⟨0, _⟩ => rfl
    | ⟨1, _⟩ => rfl)
  show k0_pay3 (iblk0 V c 0 t) (iblk0 V c 4 t) (iblk0 V c 5 t) ((cfg0.win 8).xinj (grid0.coords t) (ix2 p q))
    = gamArr V c (((cfg0.win 8).blk t).view.emb (ix2 p q))
  rw [hx, gamBlockRow t p q ⟨t.val * 5000 + p.val, by omega⟩ rfl]
  refine (pay3_apply (iblk0 V c 0 t) (iblk0 V c 4 t) (iblk0 V c 5 t) p q).trans ?_
  show _ = Layer.affineRow (fun k => V c main_arg0 (ix2 (⟨t.val * 5000 + p.val, by omega⟩ : Fin 100000) k)) (fun k q => V c main_arg6 (ix2 k q))
    (fun q => V c main_v1 (ix2 (0 : Fin 1) q)) q
  simp only [featBlock V c t p _ ⟨t.val * 5000 + p.val, by omega⟩ rfl, wrobBlock V c t, brobBlock V c t]

/-- An index of the array is in point `t`'s block iff each coordinate is in the block's range on its axis. -/
theorem gamMemBlk (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v2_2).slice (win0_8.rect t)).set ↔ _
  rw [View.set_slice_whole, Rect.mem_set_unit]
  exact Iff.rfl

/-- The twenty blocks tile the array: row `r` lies in block `r / 5000`. -/
theorem gamCover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := pointOf ⟨(i 0).val / 5000, by omega⟩
  have ht' : t.val = (i 0).val / 5000 := ht
  obtain ⟨-, -, -, -, -, -, -, -, -, -, -, -, -, -, -, -, e0, e1, -⟩ := blockIdx t
  refine ⟨t, flush0_8 t, ?_⟩
  rw [gamMemBlk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

theorem final0_8 (c : Dev nD) : (dat0 (F := Ideal) V c).arrAt 8 cfg0.N = gamArr V c :=
  (dat0 (F := Ideal) V c).arrAt_eq_of_cover 8 (gamArr V c) (fun t _ => gamFlushed V c t) gamCover

end Cert.KernelIdeal.RegionValue

end
-- ==== Proof.Region1Pay.lean ====
/-
  The normalisation body at one entry of its block.

  The body works on a block of 5000 node rows at once.  Block-wide it forms the quotient
  `y = (rate · agg + γ) / ((1 + rate · d) + ε)`, with the degree column `d` spread over the 128 channels; the mean of each
  row of `y`, kept as a column (the lane sum divided by 128); the centred block `y − μ`; the column
  `rsqrt (σ² + ε')`, where `σ²` is the row mean of the squared centred block; and the product of the centred block, that
  column and the one-row `ln_γ`, to which the one-row `ln_β` is added.

  Every one of these stages acts on each row by itself: read at row `p` and channel `q` it is the matching function of
  `Layer` applied to row `p` of the inputs.  The only steps that are not pointwise are the lane sums (a sum over the
  row), the column spread over the channels (it reads the column's entry of the row) and the one-row parameters spread over
  the rows (they read the parameter's entry of the channel).
-/
import proofs.«106388_j74500502716662_1_alg».proof.Proof.Gen.KernelIdeal.Skeleton
import proofs.«106388_j74500502716662_1_alg».proof.Proof.Layer
import proofs.«106388_j74500502716662_1_alg».proof.Proof.LibRowOps

noncomputable section

namespace Cert.KernelIdeal.NormBody

open Idealize.ShloMosaic Idealize.ShloMosaic.ValueIdx
open Cert.KernelIdeal Cert.KernelIdeal.Gen Cert.RowOps

/-! ## The stages, block-wide -/

/-- The quotient `y` of a block: `(rate · agg + γ) / ((1 + rate · d) + ε)`, the degree column `d` spread over the channels. -/
def quotVec (r a g : FVec Ideal S5000x128 .f32) (d : FVec Ideal S5000x1 .f32) : FVec Ideal S5000x128 .f32 :=
  divf (addf (mulf r a) g)
    (addf (addf (broadcast S5000x128 Layer.one) (mulf r (broadcastTo S5000x128 d broadcasts_S5000x1_S5000x128)))
      (broadcast S5000x128 Layer.eps))

/-- The mean of each row of a block, kept as a column: the sum over the 128 channels divided by the channel count. -/
def meanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 Layer.width)

/-- A block less its rows' means: `y − μ`, the mean column spread over the channels. -/
def centred (y : FVec Ideal S5000x128 .f32) : FVec Ideal S5000x128 .f32 :=
  subf y (broadcastTo S5000x128 (meanCol y) broadcasts_S5000x1_S5000x128)

/-- The column `rsqrt (σ² + ε')`: `σ²` is the row mean of the squared centred block. -/
def invDev (y : FVec Ideal S5000x128 .f32) : FVec Ideal S5000x1 .f32 :=
  rsqrt (addf (meanCol (mulf (centred y) (centred y))) (broadcast S5000x1 Layer.lnEps))

/-- The centred block times the column `rsqrt (σ² + ε')` times the one-row parameter `ln_γ`. -/
def scaled (y : FVec Ideal S5000x128 .f32) (lng : FVec Ideal S1x128 .f32) : FVec Ideal S5000x128 .f32 :=
  mulf (mulf (centred y) (broadcastTo S5000x128 (invDev y) broadcasts_S5000x1_S5000x128))
    (broadcastTo S5000x128 (shapeCast S1x128 lng shapeCasts_S1x128_S1x128) broadcasts_S1x128_S5000x128)

/-! ## Each stage at row `p`, channel `q` -/

/-- The quotient at `(p, q)` is `Layer.yRow` of row `p` of its operands and the row's degree. -/
theorem quotVec_apply (r a g : FVec Ideal S5000x128 .f32) (d : FVec Ideal S5000x1 .f32) (p : Fin 5000) (q : Fin 128) :
    quotVec r a g d (ix2 p q)
      = Layer.yRow (fun k => r (ix2 p k)) (fun k => a (ix2 p k)) (fun k => g (ix2 p k)) (d (ix2 p (0 : Fin 1))) q :=
  congrArg (fun s => Ideal.div (r (ix2 p q) * a (ix2 p q) + g (ix2 p q)) ((Layer.one + r (ix2 p q) * s) + Layer.eps))
    (broadcastTo_a1_ab_apply d broadcasts_S5000x1_S5000x128 p q)

/-- The mean column at row `p` is the mean of that row. -/
theorem meanCol_apply (y : FVec Ideal S5000x128 .f32) (p : Fin 5000) :
    meanCol y (ix2 p (0 : Fin 1)) = Layer.meanRow (fun k => y (ix2 p k)) :=
  congrArg (fun s => Ideal.div s Layer.width)
    ((shapeCast_a_a1_apply _ shapeCasts_S5000_S5000x1 p (0 : Fin 1)).trans
      (laneSum_apply y 0x00000000#32 reduces_S5000x128_S5000 (.inl rfl) rfl p))

/-- The centred block at `(p, q)`: the entry less the mean of its row. -/
theorem centred_apply (y : FVec Ideal S5000x128 .f32) (p : Fin 5000) (q : Fin 128) :
    centred y (ix2 p q) = y (ix2 p q) - Layer.meanRow (fun k => y (ix2 p k)) :=
  congrArg (fun s => y (ix2 p q) - s)
    ((broadcastTo_a1_ab_apply (meanCol y) broadcasts_S5000x1_S5000x128 p q).trans (meanCol_apply y p))

/-- The row mean of the squared centred block at row `p` is the variance of that row about its mean. -/
theorem varCol_apply (y : FVec Ideal S5000x128 .f32) (p : Fin 5000) :
    meanCol (mulf (centred y) (centred y)) (ix2 p (0 : Fin 1)) = Layer.varRow (fun k => y (ix2 p k)) :=
  (meanCol_apply _ p).trans
    (congrArg (fun s => Ideal.div s Layer.width)
      (Finset.sum_congr rfl fun k _ => by
        show centred y (ix2 p k) * centred y (ix2 p k) = _
        rw [centred_apply]))

/-- The column `rsqrt (σ² + ε')` at row `p`. -/
theorem invDev_apply (y : FVec Ideal S5000x128 .f32) (p : Fin 5000) :
    invDev y (ix2 p (0 : Fin 1)) = Ideal.rsqrt (Layer.varRow (fun k => y (ix2 p k)) + Layer.lnEps) :=
  congrArg (fun s => Ideal.rsqrt (s + Layer.lnEps)) (varCol_apply y p)

/-- The scaled block at `(p, q)`. -/
theorem scaled_apply (y : FVec Ideal S5000x128 .f32) (lng : FVec Ideal S1x128 .f32) (p : Fin 5000) (q : Fin 128) :
    scaled y lng (ix2 p q)
      = (y (ix2 p q) - Layer.meanRow (fun k => y (ix2 p k))) * Ideal.rsqrt (Layer.varRow (fun k => y (ix2 p k)) + Layer.lnEps)
          * lng (ix2 (0 : Fin 1) q) := by
  show centred y (ix2 p q) * broadcastTo S5000x128 (invDev y) broadcasts_S5000x1_S5000x128 (ix2 p q)
      * broadcastTo S5000x128 (shapeCast S1x128 lng shapeCasts_S1x128_S1x128) broadcasts_S1x128_S5000x128 (ix2 p q) = _
  rw [centred_apply, broadcastTo_a1_ab_apply, invDev_apply, rowParam_spread_apply]

/-! ## The body's two payloads -/

/-- The body's product is the scaled block of the quotient of its loaded blocks (each loaded block cast to its own
    shape, the degree column converted to a float). -/
theorem pay2_stages (x0 x1 x2 : Vec Ideal S5000x128 .f32) (x3 : Vec Ideal S5000x1 .i32) (x4 : Vec Ideal S1x128 .f32) :
    k1_pay2 x0 x1 x2 x3 x4
      = scaled (quotVec (shapeCast S5000x128 x0 shapeCasts_S5000x128_S5000x128) (shapeCast S5000x128 x1 shapeCasts_S5000x128_S5000x128)
          (shapeCast S5000x128 x2 shapeCasts_S5000x128_S5000x128) (sitofp .f32 (shapeCast S5000x1 x3 shapeCasts_S5000x1_S5000x1))) x4 := rfl

/-- The stored value adds the one-row parameter `ln_β`: at `(p, q)` its entry of channel `q`. -/
theorem pay1_apply (v : FVec Ideal S5000x128 .f32) (b : Vec Ideal S1x128 .f32) (p : Fin 5000) (q : Fin 128) :
    k1_pay1 v b (ix2 p q) = v (ix2 p q) + b (ix2 (0 : Fin 1) q) :=
  congrArg (fun s => v (ix2 p q) + s) (rowParam_spread_apply b shapeCasts_S1x128_S1x128 broadcasts_S1x128_S5000x128 p q)

/-- THE BODY AT AN ENTRY: what the body stores at row `p`, channel `q` of its block is `Layer.normRow` of row `p` of the
    loaded blocks, the row's degree as a float, and the two one-row parameters. -/
theorem normBody_apply (x0 x1 x2 : Vec Ideal S5000x128 .f32) (x3 : Vec Ideal S5000x1 .i32) (x4 x5 : Vec Ideal S1x128 .f32)
    (p : Fin 5000) (q : Fin 128) :
    k1_pay1 (k1_pay2 x0 x1 x2 x3 x4) x5 (ix2 p q)
      = Layer.normRow (fun k => x0 (ix2 p k)) (fun k => x1 (ix2 p k)) (fun k => x2 (ix2 p k))
          (FloatOps.sitofp (F := Ideal) .f32 (x3 (ix2 p (0 : Fin 1)))) (fun q => x4 (ix2 (0 : Fin 1) q)) (fun q => x5 (ix2 (0 : Fin 1) q)) q := by
  rw [pay1_apply, pay2_stages, scaled_apply, shapeCast_self x0, shapeCast_self x1, shapeCast_self x2, shapeCast_self x3]
  have hy : (fun k => quotVec x0 x1 x2 (sitofp .f32 x3) (ix2 p k))
      = Layer.yRow (fun k => x0 (ix2 p k)) (fun k => x1 (ix2 p k)) (fun k => x2 (ix2 p k))
          (FloatOps.sitofp (F := Ideal) .f32 (x3 (ix2 p (0 : Fin 1)))) :=
    funext fun k => quotVec_apply x0 x1 x2 (sitofp .f32 x3) p k
  rw [hy, quotVec_apply]
  rfl

end Cert.KernelIdeal.NormBody

end
-- ==== Proof.Region1.lean ====
/-
  The normalisation region: what its result array holds once all twenty row blocks are written back.

  Block `t` of the result is a function of block `t` of the rate, of the aggregated messages, of `γ` and of the degree
  column, and of the two one-row LayerNorm parameters; each row of it depends on that one row of the inputs only.  So the
  array, index by index, is `Layer.normRow` of the node's own rows: the quotient `y`, its mean and variance over the 128
  channels, and `(y − μ) · rsqrt (σ² + ε') · ln_γ + ln_β`.
-/
import proofs.«106388_j74500502716662_1_alg».proof.Proof.Gen.KernelIdeal.Frame
import proofs.«106388_j74500502716662_1_alg».proof.Proof.Layer
import proofs.«106388_j74500502716662_1_alg».proof.Proof.LibRowOps
import proofs.«106388_j74500502716662_1_alg».proof.Proof.Region1Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

-- the TensorCore's buffer contents when the region is entered
variable (V : (c : Dev nD) → (b : Ref sig .tc) → Buf (Elt Ideal) ((c : Thread nD τ).loc b))

/-- The layer's result, index by index, from the arrays as the region finds them. -/
def outArr (c : Dev nD) : S100000x128.Idx → EReal := fun i =>
  Layer.normRow (fun k => V c main_v2_1 (ix2 (i 0) k)) (fun k => V c main_v24 (ix2 (i 0) k)) (fun k => V c main_v2_2 (ix2 (i 0) k))
    (FloatOps.sitofp (F := Ideal) .f32 (V c main_v25 (ix2 (i 0) (0 : Fin 1))))
    (fun q => V c main_v26 (ix2 (0 : Fin 1) q)) (fun q => V c main_v27 (ix2 (0 : Fin 1) q)) (i 1)

-- the auxiliary facts of this region, apart from those of the projection region
namespace Norm

/-! ## Where each window's block sits -/

/-- The zero offsets of the body's whole-block accesses. -/
theorem zeroOff : (![0, 0] : Fin 2 → Nat) = fun _ => 0 := funext fun a => by fin_cases a <;> rfl

/-- The printed index maps, decided once over the twenty row blocks: the rate, the aggregated messages, `γ` and the degree
    column are fetched at the row block the result is written to; the two LayerNorm parameters are fetched whole; no window
    moves along the channels; the result's row block is one of the twenty. -/
theorem blockIdx : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = win1_6.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every one of the twenty row blocks of the result is some point's. -/
theorem blockOnto : ∀ b : Fin 20, ∃ t : Fin cfg1.N, win1_6.index t = ![b.val, 0] :=
  (by decide +kernel : ∀ b : Fin 20, ∃ t : Fin grid1.N, win1_6.index t = ![b.val, 0])

/-- A rank-two index with known coordinates. -/
theorem idx2_of_vals {n0 n1 : Nat} (i : (⟨2, ![n0, n1]⟩ : Shape).Idx) (a : Fin n0) (b : Fin n1)
    (h0 : (i 0).val = a.val) (h1 : (i 1).val = b.val) : i = ix2 a b :=
  funext fun d => Fin.ext (by
    match d with
    | ⟨0, _⟩ => exact h0
    | ⟨1, _⟩ => exact h1)

/-- `Layer.normRow` of rows that agree entry by entry. -/
theorem normRow_congr {r r' a a' g g' lg lg' lb lb' : Fin 128 → EReal} {d d' : EReal}
    (hr : ∀ k, r k = r' k) (ha : ∀ k, a k = a' k) (hg : ∀ k, g k = g' k) (hd : d = d')
    (hlg : ∀ k, lg k = lg' k) (hlb : ∀ k, lb k = lb' k) (q : Fin 128) :
    Layer.normRow r a g d lg lb q = Layer.normRow r' a' g' d' lg' lb' q := by
  obtain rfl : r = r' := funext hr
  obtain rfl : a = a' := funext ha
  obtain rfl : g = g' := funext hg
  obtain rfl : lg = lg' := funext hlg
  obtain rfl : lb = lb' := funext hlb
  rw [hd]

/-! ## What a point writes back -/

/-- WHAT POINT `t` WRITES BACK is block `t` of `outArr`: the body stores one whole block, whose entry at row `p`, channel
    `q` is `Layer.normRow` of row `p` of the fetched blocks; row `p` of a fetched block is row `5000 · (the row block) + p` of its
    array, the degree column likewise, and the one-row parameters are read whole. -/
theorem flushed_eq (c : Dev nD) (t : Fin cfg1.N) :
    (dat1 (F := Ideal) V c).flushed 6 t = ((cfg1.win 6).blk t).view.read (Elt Ideal) (outArr V c) := by
  show (cfg1.win 6).cut (grid1.coords t) ((dat1 V c).after 6 t) = _
  rw [after1_6]
  unfold out1_6
  rw [View.canon_unit_zero zeroOff]
  simp only [View.ld_unit_zero (S := S5000x128) zeroOff, View.ld_unit_zero (S := S5000x1) zeroOff, View.ld_unit_zero (S := S1x128) zeroOff]
  obtain ⟨i00, i01, i10, i11, i20, i21, i30, i31, i40, i41, i50, i51, i60, i61⟩ := blockIdx t
  funext j
  obtain ⟨p, q, rfl⟩ : ∃ (p : Fin 5000) (q : Fin 128), j = ix2 p q := ⟨j 0, j 1, eq_ix2 j⟩
  show k1_pay1 (k1_pay2 (iblk1 V c 0 t) (iblk1 V c 1 t) (iblk1 V c 2 t) (iblk1 V c 3 t) (iblk1 V c 4 t)) (iblk1 V c 5 t) (ix2 p q)
      = outArr V c (((cfg1.win 6).blk t).view.emb (ix2 p q))
  refine (NormBody.normBody_apply (iblk1 V c 0 t) (iblk1 V c 1 t) (iblk1 V c 2 t) (iblk1 V c 3 t) (iblk1 V c 4 t) (iblk1 V c 5 t) p q).trans ?_
  have hp : p.val < 5000 := p.isLt
  obtain ⟨r, hrv⟩ : ∃ r : Fin 100000, r.val = win1_6.index t (0 : Fin 2) * 5000 + p.val := ⟨⟨_, by omega⟩, rfl⟩
  have hemb : ((cfg1.win 6).blk t).view.emb (ix2 p q) = ix2 r q :=
    idx2_of_vals _ r q
      (by show win1_6.index t (0 : Fin 2) * 5000 + 1 * p.val = r.val; omega)
      (by show win1_6.index t (1 : Fin 2) * 128 + 1 * q.val = q.val; omega)
  rw [hemb]
  have e0 : ∀ k : Fin 128, iblk1 V c 0 t (ix2 p k) = V c main_v2_1 (ix2 r k) := fun k => by
    show V c main_v2_1 (((cfg1.win 0).blk t).view.emb (ix2 p k)) = _
    exact congrArg (V c main_v2_1) (idx2_of_vals _ r k
      (by show win1_0.index t (0 : Fin 2) * 5000 + 1 * p.val = r.val; omega)
      (by show win1_0.index t (1 : Fin 2) * 128 + 1 * k.val = k.val; omega))
  have e1 : ∀ k : Fin 128, iblk1 V c 1 t (ix2 p k) = V c main_v24 (ix2 r k) := fun k => by
    show V c main_v24 (((cfg1.win 1).blk t).view.emb (ix2 p k)) = _
    exact congrArg (V c main_v24) (idx2_of_vals _ r k
      (by show win1_1.index t (0 : Fin 2) * 5000 + 1 * p.val = r.val; omega)
      (by show win1_1.index t (1 : Fin 2) * 128 + 1 * k.val = k.val; omega))
  have e2 : ∀ k : Fin 128, iblk1 V c 2 t (ix2 p k) = V c main_v2_2 (ix2 r k) := fun k => by
    show V c main_v2_2 (((cfg1.win 2).blk t).view.emb (ix2 p k)) = _
    exact congrArg (V c main_v2_2) (idx2_of_vals _ r k
      (by show win1_2.index t (0 : Fin 2) * 5000 + 1 * p.val = r.val; omega)
      (by show win1_2.index t (1 : Fin 2) * 128 + 1 * k.val = k.val; omega))
  have e3 : iblk1 V c 3 t (ix2 p (0 : Fin 1)) = V c main_v25 (ix2 r (0 : Fin 1)) := by
    show V c main_v25 (((cfg1.win 3).blk t).view.emb (ix2 p (0 : Fin 1))) = _
    exact congrArg (V c main_v25) (idx2_of_vals _ r (0 : Fin 1)
      (by show win1_3.index t (0 : Fin 2) * 5000 + 1 * p.val = r.val; omega)
      (by show win1_3.index t (1 : Fin 2) * 1 + 1 * 0 = 0; omega))
  have e4 : ∀ k : Fin 128, iblk1 V c 4 t (ix2 (0 : Fin 1) k) = V c main_v26 (ix2 (0 : Fin 1) k) := fun k => by
    show V c main_v26 (((cfg1.win 4).blk t).view.emb (ix2 (0 : Fin 1) k)) = _
    exact congrArg (V c main_v26) (idx2_of_vals _ (0 : Fin 1) k
      (by show win1_4.index t (0 : Fin 2) * 1 + 1 * 0 = 0; omega)
      (by show win1_4.index t (1 : Fin 2) * 128 + 1 * k.val = k.val; omega))
  have e5 : ∀ k : Fin 128, iblk1 V c 5 t (ix2 (0 : Fin 1) k) = V c main_v27 (ix2 (0 : Fin 1) k) := fun k => by
    show V c main_v27 (((cfg1.win 5).blk t).view.emb (ix2 (0 : Fin 1) k)) = _
    exact congrArg (V c main_v27) (idx2_of_vals _ (0 : Fin 1) k
      (by show win1_5.index t (0 : Fin 2) * 1 + 1 * 0 = 0; omega)
      (by show win1_5.index t (1 : Fin 2) * 128 + 1 * k.val = k.val; omega))
  exact normRow_congr e0 e1 e2 (congrArg (FloatOps.sitofp (F := Ideal) .f32) e3) e4 e5 q

/-! ## The blocks cover the array -/

/-- An index of the result is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v28).slice (win1_6.rect t)).set ↔ _
  rw [View.set_slice_whole, Rect.mem_set_unit]
  exact Iff.rfl

/-- Row `r` of the result lies in row block `r / 5000`, and every point writes its block back: the blocks cover the array. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := blockOnto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

end Norm

/-! ## The array after the region -/

/-- THE RESULT ARRAY after the region: every index is written by the point of its row block, with `outArr` there. -/
theorem final1_6 (c : Dev nD) : (dat1 (F := Ideal) V c).arrAt 6 cfg1.N = outArr V c :=
  (dat1 (F := Ideal) V c).arrAt_eq_of_cover 6 (outArr V c) (fun t _ => Norm.flushed_eq V c t) Norm.cover

end Cert.KernelIdeal.RegionValue

end
-- ==== Proof.RefOps.lean ====
/-
  The reference as one straight line of host operations.

  Its main function calls three outlined functions: softplus (once, on the rate's matrix product), the variance of a
  row (once, on the quotient y), and inside the variance a select-against-a-scalar.  Executing a call is executing the
  callee's body on the operands, so the program is the list below: each callee's operations stand at its call site,
  over that call's own buffers.  Every execution of the list ends with each buffer at the fold of the operations'
  results over the contents at launch.
-/
import proofs.«106388_j74500502716662_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the calls unfolded: the rate's matrix product, softplus's fourteen over the
    first call's buffers, the rest of the three row stages, the edge aggregation (%12 … %33), the quotient y
    (%34 … %44), the mean (%45 … %48), the variance's twenty-two and its select's three over the second call's buffers,
    and the normalisation (%50 … %62). -/
abbrev ops : List (HloOp τ sig (Elt F)) :=
  [ binary main_arg0 main_arg5 main_v0 (fun l r => Host.dotGeneral dot_S100000x128_S128x128_S100000x128_1_0_0_1_n_n none l r),
    -- softplus of %0
    TRef.nullary main_call0.cst (constant S_ .f32 0x00000000#32),
    TRef.unary main_call0.cst main_call0.v0 (broadcastInDim S100000x128 ![] bcast_S_S100000x128),
    TRef.binary (.of main_v0) main_call0.v0 main_call0.v1 maximumf,
    TRef.unary main_call0.cst main_call0.v2 (broadcastInDim S100000x128 ![] bcast_S_S100000x128),
    TRef.binary (.of main_v0) main_call0.v2 main_call0.v3 subf,
    TRef.binary main_call0.v3 main_call0.v3 main_call0.v4 (cmpf .une),
    TRef.unary main_call0.cst main_call0.v5 (broadcastInDim S100000x128 ![] bcast_S_S100000x128),
    TRef.binary (.of main_v0) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    -- the rate, γ, and the message features
    nullary main_cst (constant S_ .f32 0x38D1B717#32),
    unary main_cst main_v2 (broadcastInDim S100000x128 ![] bcast_S_S100000x128),
    binary main_v1 main_v2 main_v3 addf,
    binary main_arg0 main_arg6 main_v4 (fun l r => Host.dotGeneral dot_S100000x128_S128x128_S100000x128_1_0_0_1_n_n none l r),
    unary main_arg7 main_v5 (broadcastInDim S1x128 ![1] bcast_S128_S1x128_1),
    unary main_v5 main_v6 (broadcastInDim S100000x128 ![0, 1] bcast_S1x128_S100000x128_0_1),
    binary main_v4 main_v6 main_v7 addf,
    binary main_arg0 main_arg3 main_v8 (fun l r => Host.dotGeneral dot_S100000x128_S128x128_S100000x128_1_0_0_1_n_n none l r),
    unary main_arg4 main_v9 (broadcastInDim S1x128 ![1] bcast_S128_S1x128_1),
    unary main_v9 main_v10 (broadcastInDim S100000x128 ![0, 1] bcast_S1x128_S100000x128_0_1),
    binary main_v8 main_v10 main_v11 addf,
    -- the edge aggregation
    unary main_arg1 main_v12 (extractStridedSlice S1x800000 ![0, 0] · slices_S2x800000_S1x800000_0_0),
    reshape main_v12 main_v13 rfl shapeCasts_S1x800000_S800000,
    unary main_arg1 main_v14 (extractStridedSlice S1x800000 ![1, 0] · slices_S2x800000_S1x800000_1_0),
    reshape main_v14 main_v15 rfl shapeCasts_S1x800000_S800000,
    nullary main_c (constantI S_ 32 0#32),
    unary main_c main_v16 (broadcastInDim S800000 ![] bcast_S_S800000),
    binary main_v13 main_v16 main_v17 (cmpi .slt),
    nullary main_c_0 (constantI S_ 32 100000#32),
    unary main_c_0 main_v18 (broadcastInDim S800000 ![] bcast_S_S800000),
    binary main_v13 main_v18 main_v19 addi,
    ternary main_v17 main_v19 main_v13 main_v20 select,
    unary main_v20 main_v21 (broadcastInDim S800000x1 ![0] bcast_S800000_S800000x1_0),
    binary main_v11 main_v21 main_v22 (fun x i => Host.gather gather_S100000x128_S800000x1_S800000x128_1_0_n_n_0_1_1128 x i),
    nullary main_c_1 (constantI S_ 32 0#32),
    unary main_c_1 main_v23 (broadcastInDim S800000 ![] bcast_S_S800000),
    binary main_v15 main_v23 main_v24 (cmpi .slt),
    nullary main_c_2 (constantI S_ 32 100000#32),
    unary main_c_2 main_v25 (broadcastInDim S800000 ![] bcast_S_S800000),
    binary main_v15 main_v25 main_v26 addi,
    ternary main_v24 main_v26 main_v15 main_v27 select,
    unary main_v27 main_v28 (broadcastInDim S800000x1 ![0] bcast_S800000_S800000x1_0),
    binary main_v11 main_v28 main_v29 (fun x i => Host.gather gather_S100000x128_S800000x1_S800000x128_1_0_n_n_0_1_1128 x i),
    binary main_v22 main_v29 main_v30 addf,
    nullary main_cst_3 (constant S_ .f32 0x00000000#32),
    unary main_cst_3 main_v31 (broadcastInDim S100000x128 ![] bcast_S_S100000x128),
    unary main_v13 main_v32 (broadcastInDim S800000x1 ![0] bcast_S800000_S800000x1_0),
    ternary main_v31 main_v32 main_v30 main_v33 (fun x i u => Host.scatterAdd scatter_S100000x128_S800000x1_S800000x128_1_0_0_1 x i u),
    -- the quotient y
    unary main_arg2 main_v34 (sitofp .f32),
    unary main_v34 main_v35 (broadcastInDim S100000x1 ![0] bcast_S100000_S100000x1_0),
    binary main_v3 main_v33 main_v36 mulf,
    binary main_v36 main_v7 main_v37 addf,
    unary main_v35 main_v38 (broadcastInDim S100000x128 ![0, 1] bcast_S100000x1_S100000x128_0_1),
    binary main_v3 main_v38 main_v39 mulf,
    nullary main_cst_4 (constant S_ .f32 0x3F800000#32),
    unary main_cst_4 main_v40 (broadcastInDim S100000x128 ![] bcast_S_S100000x128),
    binary main_v40 main_v39 main_v41 addf,
    nullary main_cst_5 (constant S_ .f32 0x38D1B717#32),
    unary main_cst_5 main_v42 (broadcastInDim S100000x128 ![] bcast_S_S100000x128),
    binary main_v41 main_v42 main_v43 addf,
    binary main_v37 main_v43 main_v44 Host.divf,
    -- the mean
    nullary main_cst_6 (constant S_ .f32 0x00000000#32),
    binary main_v44 main_cst_6 main_v45 (fun x v => Host.reduceAdd x v reducesTo_S100000x128_S100000_d1 h_S_),
    unary main_v45 main_v46 (broadcastInDim S100000x1 ![0] bcast_S100000_S100000x1_0),
    nullary main_cst_7 (constant S_ .f32 0x43000000#32),
    unary main_cst_7 main_v47 (broadcastInDim S100000x1 ![] bcast_S_S100000x1),
    binary main_v46 main_v47 main_v48 Host.divf,
    nullary main_c_8 (constantI S_ 32 0#32),
    -- the variance of %44
    TRef.nullary main_call1.cst (constant S_ .f32 0x00000000#32),
    TRef.binary (.of main_v44) main_call1.cst main_call1.v0 (fun x v => Host.reduceAdd x v reducesTo_S100000x128_S100000_d1 h_S_),
    TRef.unary main_call1.v0 main_call1.v1 (broadcastInDim S100000x1 ![0] bcast_S100000_S100000x1_0),
    TRef.nullary main_call1.cst_0 (constant S_ .f32 0x43000000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x128 ![0, 1] bcast_S100000x1_S100000x128_0_1),
    TRef.binary (.of main_v44) main_call1.v4 main_call1.v5 subf,
    TRef.binary main_call1.v5 main_call1.v5 main_call1.v6 mulf,
    TRef.unary (.of main_c_8) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2
      (fun p a b => select (broadcastInDim S100000x1 ![] bcast_S_S100000x1 p) a b),
    -- the normalisation
    unary main_v48 main_v50 (broadcastInDim S100000x128 ![0, 1] bcast_S100000x1_S100000x128_0_1),
    binary main_v44 main_v50 main_v51 subf,
    nullary main_cst_9 (constant S_ .f32 0x3727C5AC#32),
    unary main_cst_9 main_v52 (broadcastInDim S100000x1 ![] bcast_S_S100000x1),
    binary main_v49 main_v52 main_v53 addf,
    unary main_v53 main_v54 Host.rsqrt,
    unary main_v54 main_v55 (broadcastInDim S100000x128 ![0, 1] bcast_S100000x1_S100000x128_0_1),
    binary main_v51 main_v55 main_v56 mulf,
    unary main_arg8 main_v57 (broadcastInDim S1x128 ![1] bcast_S128_S1x128_1),
    unary main_v57 main_v58 (broadcastInDim S100000x128 ![0, 1] bcast_S1x128_S100000x128_0_1),
    binary main_v56 main_v58 main_v59 mulf,
    unary main_arg9 main_v60 (broadcastInDim S1x128 ![1] bcast_S128_S1x128_1),
    unary main_v60 main_v61 (broadcastInDim S100000x128 ![0, 1] bcast_S1x128_S100000x128_0_1),
    binary main_v59 main_v61 main_v62 addf ]

-- one hundred and thirteen binds re-associated: the rewrite under the chain recurses once per statement
set_option maxRecDepth 8192 in
set_option maxHeartbeats 4000000 in
/-- The main function is that straight line: the two windows and the three functions unfolded at their calls, the
    sequencing re-associated. -/
theorem main_eq (c : Dev nD) : main (F := F) c = seq ops := by
  simp only [main, main_part0, main_part1, fn_softplus.body, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub ..,
    -- softplus
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    -- the rate, γ, the message features
    nullary_bufs_sub .., unary_bufs_sub .., binary_bufs_sub .., binary_bufs_sub .., unary_bufs_sub .., unary_bufs_sub ..,
    binary_bufs_sub .., binary_bufs_sub .., unary_bufs_sub .., unary_bufs_sub .., binary_bufs_sub ..,
    -- the edge aggregation
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub ..,
    -- the quotient
    unary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub ..,
    -- the mean
    nullary_bufs_sub .., binary_bufs_sub .., unary_bufs_sub .., nullary_bufs_sub .., unary_bufs_sub .., binary_bufs_sub ..,
    nullary_bufs_sub ..,
    -- the variance
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    -- the normalisation
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- On every device, for any float values, from any memory with zero counters: every weakly fair execution of the
    reference terminates, and every final state has each buffer at the fold of the operations' results over the
    contents at launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefStages.lean ====
/-
  The reference's stages as functions of whole arrays, and each of them read at one entry.

  Every stage but the edge aggregation acts on one node's row at a time.  Read at the entry (r, q) of the node array,

  * the matrix product with a 128×128 weight is the row r of the features times the weight, at channel q;
  * a parameter row spread over the nodes is its entry q; a scalar literal spread is the literal;
  * softplus is the overflow-safe form: its guard compares r − 0 with itself for inequality, which never holds of an
    extended real, so the select keeps the safe branch;
  * a sum over the channels, kept as a column and spread back, is the sum of row r;
  * the variance divides by 128 − 0 (the integer zero converted), chosen over a filler by the test 128 − 0 > 0,
    which holds;

  so the whole composition, at (r, q), is the normalised row of the layer at channel q.
-/
import proofs.«106388_j74500502716662_1_alg».proof.Proof.Gen.ReferenceIdeal
import proofs.«106388_j74500502716662_1_alg».proof.Proof.Layer
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.RefStages

open Idealize.ShloMosaic Idealize.ShloMosaic.ValueIdx
open Cert.ReferenceIdeal Cert.ReferenceIdeal.Gen

/-! ## General readings -/

/-- A plain product of an [M,K] by a [K,N] matrix on the host, read at (p, c): the sum over k of
    lhs (p, k) · rhs (k, c). -/
theorem dotGeneral_rows_apply {M K N : ℕ} {φ₁ φ₂ : FTy}
    (wf : DotDims.WF ⟨2, ![M, K]⟩ ⟨2, ![K, N]⟩ ⟨2, ![M, N]⟩ [1] [0] [0] [1] [] [])
    (prec : Option ContractPrecision) (sched : HostSchedule) (lhs : FVec Ideal ⟨2, ![M, K]⟩ φ₁) (rhs : FVec Ideal ⟨2, ![K, N]⟩ φ₂)
    (p : Fin M) (c : Fin N) :
    FloatOps.dotGeneral (⟨[1], [0], [0], [1], [], [], wf⟩ : DotDims ⟨2, ![M, K]⟩ ⟨2, ![K, N]⟩ ⟨2, ![M, N]⟩) prec sched lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

/-- An inequality test of an extended real against itself fails. -/
theorem cmp_une_self (v : EReal) : Ideal.cmp .une v v = 0#1 := by
  simp [Ideal.cmp]

/-- The literal 128 is positive. -/
theorem width_pos : (0 : EReal) < Layer.width := by
  have h : Layer.width = ((128 : ℝ) : EReal) := by
    simp [Layer.width, Ideal.ofBits, Ideal.ieee]
    rw [← EReal.coe_mul]
    norm_num
  rw [h]
  exact_mod_cast (by norm_num : (0 : ℝ) < 128)

/-! ## The stages on whole arrays -/

/-- The node array: 100000 nodes by 128 channels. -/
abbrev NodeArr : Type := FVec Ideal S100000x128 .f32
/-- One value per node, kept as a column. -/
abbrev ColArr : Type := FVec Ideal S100000x1 .f32

/-- A scalar literal spread over the node array. -/
def splat (b : BitVec 32) : NodeArr :=
  broadcastInDim S100000x128 ![] bcast_S_S100000x128 (constant (F := Ideal) S_ .f32 b)

/-- A scalar literal spread over a column. -/
def splatCol (b : BitVec 32) : ColArr :=
  broadcastInDim S100000x1 ![] bcast_S_S100000x1 (constant (F := Ideal) S_ .f32 b)

/-- The features times a weight matrix. -/
def matA (x : NodeArr) (W : FVec Ideal S128x128 .f32) : NodeArr :=
  Host.dotGeneral dot_S100000x128_S128x128_S100000x128_1_0_0_1_n_n none x W

/-- A parameter row spread over the nodes. -/
def rowA (b : FVec Ideal S128 .f32) : NodeArr :=
  broadcastInDim S100000x128 ![0, 1] bcast_S1x128_S100000x128_0_1 (broadcastInDim S1x128 ![1] bcast_S128_S1x128_1 b)

/-- An affine stage: x·W + b. -/
def affineA (x : NodeArr) (W : FVec Ideal S128x128 .f32) (b : FVec Ideal S128 .f32) : NodeArr :=
  addf (matA x W) (rowA b)

/-- softplus as the reference spells it: the guarded select over the overflow-safe form. -/
def softplusA (r : NodeArr) : NodeArr :=
  select (cmpf .une (subf r (splat 0x00000000#32)) (subf r (splat 0x00000000#32))) (addf r (splat 0x00000000#32))
    (addf (maximumf r (splat 0x00000000#32))
      (Host.log1p (Host.exp (Host.negf (Host.absf (subf r (splat 0x00000000#32)))))))

/-- The rate: softplus (x·W) + ε. -/
def rateA (x : NodeArr) (W : FVec Ideal S128x128 .f32) : NodeArr :=
  addf (softplusA (matA x W)) (splat 0x38D1B717#32)

/-- One value per node as a column. -/
def colA (v : FVec Ideal S100000 .f32) : ColArr :=
  broadcastInDim S100000x1 ![0] bcast_S100000_S100000x1_0 v

/-- A column spread over the channels. -/
def spreadA (c : ColArr) : NodeArr :=
  broadcastInDim S100000x128 ![0, 1] bcast_S100000x1_S100000x128_0_1 c

/-- The degrees, converted and spread over the channels. -/
def degA (deg : IVec S100000 32) : NodeArr :=
  spreadA (colA (sitofp .f32 deg))

/-- The quotient y = (rate·agg + γ) / ((1 + rate·d) + ε). -/
def yA (rate ag gam dg : NodeArr) : NodeArr :=
  Host.divf (addf (mulf rate ag) gam) (addf (addf (splat 0x3F800000#32) (mulf rate dg)) (splat 0x38D1B717#32))

/-- The sum of each node's row, from the zero word. -/
def rowSumA (y : NodeArr) : FVec Ideal S100000 .f32 :=
  Host.reduceAdd y (constant (F := Ideal) S_ .f32 0x00000000#32) reducesTo_S100000x128_S100000_d1 h_S_

/-- The mean of each node's row, as a column. -/
def meanA (y : NodeArr) : ColArr :=
  Host.divf (colA (rowSumA y)) (splatCol 0x43000000#32)

/-- The variance's divisor: 128 less the integer zero converted. -/
def countA : FVec Ideal S_ .f32 :=
  subf (constant (F := Ideal) S_ .f32 0x43000000#32) (sitofp .f32 (constantI S_ 32 0#32))

/-- The variance of each node's row about its mean, as a column: the quotient by the divisor where the divisor is
    positive, a filler elsewhere. -/
def varA (y : NodeArr) : ColArr :=
  select (broadcastInDim S100000x1 ![] bcast_S_S100000x1 (cmpf .ogt countA (constant (F := Ideal) S_ .f32 0x00000000#32)))
    (Host.divf (colA (rowSumA (mulf (subf y (spreadA (meanA y))) (subf y (spreadA (meanA y))))))
      (broadcastInDim S100000x1 ![] bcast_S_S100000x1 countA))
    (broadcastInDim S100000x1 ![] bcast_S_S100000x1 (id (constant (F := Ideal) S_ .f32 0x7FC00000#32)))

/-- The normalisation: (y − μ) · rsqrt (σ² + ε') · ln_γ + ln_β. -/
def outA (y : NodeArr) (lng lnb : FVec Ideal S128 .f32) : NodeArr :=
  addf (mulf (mulf (subf y (spreadA (meanA y))) (spreadA (Host.rsqrt (addf (varA y) (splatCol 0x3727C5AC#32))))) (rowA lng))
    (rowA lnb)

/-! ## Each stage at an entry -/

theorem splat_apply (b : BitVec 32) (i : S100000x128.Idx) : splat b i = Ideal.ofBits .f32 b := rfl

theorem splatCol_apply (b : BitVec 32) (i : S100000x1.Idx) : splatCol b i = Ideal.ofBits .f32 b := rfl

/-- The matrix product at (r, q): row r of the features times the weight, at channel q. -/
theorem matA_apply (x : NodeArr) (W : FVec Ideal S128x128 .f32) (r : Fin 100000) (q : Fin 128) :
    matA x W (ix2 r q) = Layer.rowMat (fun k => x (ix2 r k)) (fun k c => W (ix2 k c)) q :=
  dotGeneral_rows_apply dot_S100000x128_S128x128_S100000x128_1_0_0_1_n_n_wf none .single x W r q

/-- A parameter row spread over the nodes, at (r, q): its entry q. -/
theorem rowA_apply (b : FVec Ideal S128 .f32) (r : Fin 100000) (q : Fin 128) : rowA b (ix2 r q) = b (ix1 q) := by
  unfold rowA
  rw [broadcastInDim_oneRow_apply]
  refine broadcastInDim_apply ![1] bcast_S128_S1x128_1 b (ix2 (0 : Fin 1) q) (ix1 q) fun a => ?_
  match a with
  | ⟨0, _⟩ => rfl

theorem affineA_apply (x : NodeArr) (W : FVec Ideal S128x128 .f32) (b : FVec Ideal S128 .f32) (r : Fin 100000) (q : Fin 128) :
    affineA x W b (ix2 r q) = Layer.affineRow (fun k => x (ix2 r k)) (fun k c => W (ix2 k c)) (fun c => b (ix1 c)) q := by
  unfold affineA
  rw [addf_apply, matA_apply, rowA_apply]
  rfl

/-- softplus at an entry: the guard is false, the safe branch is the layer's softplus. -/
theorem softplusA_apply (v : NodeArr) (i : S100000x128.Idx) : softplusA v i = Layer.softplus (v i) := by
  unfold softplusA
  rw [select_apply, cmpf_apply, Ideal.cmpf_def, cmp_une_self, select_zero]
  rfl

theorem rateA_apply (x : NodeArr) (W : FVec Ideal S128x128 .f32) (r : Fin 100000) (q : Fin 128) :
    rateA x W (ix2 r q) = Layer.rateRow (fun k => x (ix2 r k)) (fun k c => W (ix2 k c)) q := by
  unfold rateA
  rw [addf_apply, softplusA_apply, matA_apply]
  rfl

/-- A per-node value kept as a column, at (r, u): the value of node r. -/
theorem colA_apply (v : FVec Ideal S100000 .f32) (r : Fin 100000) (u : Fin 1) : colA v (ix2 r u) = v (ix1 r) := by
  unfold colA
  refine broadcastInDim_apply ![0] bcast_S100000_S100000x1_0 v (ix2 r u) (ix1 r) fun a => ?_
  match a with
  | ⟨0, _⟩ => rfl

/-- A column spread over the channels, at (r, q): the column's entry of node r. -/
theorem spreadA_apply (c : ColArr) (r : Fin 100000) (q : Fin 128) : spreadA c (ix2 r q) = c (ix2 r (0 : Fin 1)) := by
  unfold spreadA
  refine broadcastInDim_apply ![0, 1] bcast_S100000x1_S100000x128_0_1 c (ix2 r q) (ix2 r (0 : Fin 1)) fun a => ?_
  match a with
  | ⟨0, _⟩ => rfl
  | ⟨1, _⟩ => rfl

theorem degA_apply (deg : IVec S100000 32) (r : Fin 100000) (q : Fin 128) :
    degA deg (ix2 r q) = FloatOps.sitofp (F := Ideal) .f32 (deg (ix1 r)) := by
  unfold degA
  rw [spreadA_apply, colA_apply]
  rfl

/-- The quotient at (r, q), where the degree array is constant along the row. -/
theorem yA_apply (rate ag gam dg : NodeArr) (d : EReal) (r : Fin 100000) (hd : ∀ k : Fin 128, dg (ix2 r k) = d) (q : Fin 128) :
    yA rate ag gam dg (ix2 r q)
      = Layer.yRow (fun k => rate (ix2 r k)) (fun k => ag (ix2 r k)) (fun k => gam (ix2 r k)) d q := by
  show Ideal.div (rate (ix2 r q) * ag (ix2 r q) + gam (ix2 r q)) ((Layer.one + rate (ix2 r q) * dg (ix2 r q)) + Layer.eps) = _
  rw [hd q]
  rfl

/-- A row sum at node r: the sum of the row's 128 entries. -/
theorem rowSumA_apply (y : NodeArr) (r : Fin 100000) : rowSumA y (ix1 r) = ∑ k : Fin 128, y (ix2 r k) := by
  have h : S100000x128.Reduces [1] S100000 := by decide
  show Ideal.hostReduceAdd reducesTo_S100000x128_S100000_d1 y (Ideal.ofBits .f32 0x00000000#32) (ix1 r) = _
  rw [Ideal.hostReduceAdd_single reducesTo_S100000x128_S100000_d1 h, Ideal.ofBits_zero_f32, zero_add]
  refine Finset.sum_congr rfl fun k _ => congrArg y (funext fun ax => Fin.ext ?_)
  match ax with
  | ⟨0, _⟩ => rfl
  | ⟨1, _⟩ => rfl

theorem meanA_apply (y : NodeArr) (r : Fin 100000) (u : Fin 1) :
    meanA y (ix2 r u) = Layer.meanRow (fun k => y (ix2 r k)) := by
  show Ideal.div (colA (rowSumA y) (ix2 r u)) Layer.width = _
  rw [colA_apply, rowSumA_apply]
  rfl

/-- The variance's divisor is the literal 128. -/
theorem countA_apply (i : S_.Idx) : countA i = Layer.width := by
  show Layer.width - ((((0#32 : BitVec 32).toInt : ℤ) : ℝ) : EReal) = Layer.width
  simp

theorem varA_apply (y : NodeArr) (r : Fin 100000) (u : Fin 1) :
    varA y (ix2 r u) = Layer.varRow (fun k => y (ix2 r k)) := by
  have hc : ∀ i : S_.Idx, cmpf .ogt countA (constant (F := Ideal) S_ .f32 0x00000000#32) i = 1#1 := by
    intro i
    rw [cmpf_apply, Ideal.cmpf_def, countA_apply]
    show Ideal.cmp .ogt Layer.width (Ideal.ofBits .f32 0x00000000#32) = 1#1
    rw [Ideal.ofBits_zero_f32]
    simp [Ideal.cmp, width_pos]
  unfold varA
  rw [select_apply]
  show Scalar.select (cmpf .ogt countA (constant (F := Ideal) S_ .f32 0x00000000#32) _)
      (Ideal.div (colA (rowSumA (mulf (subf y (spreadA (meanA y))) (subf y (spreadA (meanA y))))) (ix2 r u)) (countA _)) _ = _
  rw [hc, select_one, countA_apply, colA_apply, rowSumA_apply]
  unfold Layer.varRow
  refine congrArg (fun s => Ideal.div s Layer.width) (Finset.sum_congr rfl fun k _ => ?_)
  rw [mulf_apply, subf_apply, spreadA_apply, meanA_apply]

/-- The normalisation at (r, q). -/
theorem outA_apply (y : NodeArr) (lng lnb : FVec Ideal S128 .f32) (r : Fin 100000) (q : Fin 128) :
    outA y lng lnb (ix2 r q)
      = (y (ix2 r q) - Layer.meanRow (fun k => y (ix2 r k))) * Ideal.rsqrt (Layer.varRow (fun k => y (ix2 r k)) + Layer.lnEps)
          * lng (ix1 q) + lnb (ix1 q) := by
  show (y (ix2 r q) - spreadA (meanA y) (ix2 r q))
        * spreadA (Host.rsqrt (addf (varA y) (splatCol 0x3727C5AC#32))) (ix2 r q) * rowA lng (ix2 r q) + rowA lnb (ix2 r q) = _
  rw [spreadA_apply, spreadA_apply, meanA_apply, rowA_apply, rowA_apply]
  show _ * Ideal.rsqrt (varA y (ix2 r (0 : Fin 1)) + Layer.lnEps) * _ + _ = _
  rw [varA_apply]

/-! ## The stages as the layer's row functions, array by array -/

theorem affineA_eq (x : NodeArr) (W : FVec Ideal S128x128 .f32) (b : FVec Ideal S128 .f32) :
    affineA x W b
      = fun i => Layer.affineRow (fun k => x (ix2 (i 0) k)) (fun k c => W (ix2 k c)) (fun c => b (ix1 c)) (i 1) := by
  funext i
  obtain ⟨r, q, rfl⟩ : ∃ (r : Fin 100000) (q : Fin 128), i = ix2 r q := ⟨i 0, i 1, eq_ix2 i⟩
  exact affineA_apply x W b r q

theorem rateA_eq (x : NodeArr) (W : FVec Ideal S128x128 .f32) :
    rateA x W = fun i => Layer.rateRow (fun k => x (ix2 (i 0) k)) (fun k c => W (ix2 k c)) (i 1) := by
  funext i
  obtain ⟨r, q, rfl⟩ : ∃ (r : Fin 100000) (q : Fin 128), i = ix2 r q := ⟨i 0, i 1, eq_ix2 i⟩
  exact rateA_apply x W r q

/-- The quotient and its normalisation together: at (r, q) the layer's normalised row of node r at channel q. -/
theorem outA_yA_eq (rate ag gam : NodeArr) (deg : IVec S100000 32) (lng lnb : FVec Ideal S128 .f32) :
    outA (yA rate ag gam (degA deg)) lng lnb
      = fun i => Layer.normRow (fun k => rate (ix2 (i 0) k)) (fun k => ag (ix2 (i 0) k)) (fun k => gam (ix2 (i 0) k))
          (FloatOps.sitofp (F := Ideal) .f32 (deg (ix1 (i 0)))) (fun c => lng (ix1 c)) (fun c => lnb (ix1 c)) (i 1) := by
  funext i
  obtain ⟨r, q, rfl⟩ : ∃ (r : Fin 100000) (q : Fin 128), i = ix2 r q := ⟨i 0, i 1, eq_ix2 i⟩
  have hy : ∀ k : Fin 128, yA rate ag gam (degA deg) (ix2 r k)
      = Layer.yRow (fun k => rate (ix2 r k)) (fun k => ag (ix2 r k)) (fun k => gam (ix2 r k))
          (FloatOps.sitofp (F := Ideal) .f32 (deg (ix1 r))) k :=
    fun k => yA_apply rate ag gam (degA deg) _ r (fun k => degA_apply deg r k) k
  rw [outA_apply, hy q, funext hy]
  rfl

end Cert.ReferenceIdeal.RefStages

end
-- ==== Proof.RefValue.lean ====
/-
  The reference, read back: every execution of its host program ends with the result array holding, index by index,
  `Layer.normRow` of the node's own rows of the rate, of the aggregated messages and of `γ`, each of those the row
  function of `Layer` of the node's row of the features — the same functions the kernel's two regions compute block
  by block.  The aggregation in the middle is `Layer.edgeAgg` of the message features, never opened.

  Where the reference's text differs from the kernel's it differs by operations that change nothing over the extended
  reals: softplus guards a not-a-number case with `r − 0 ≠ r − 0`, which is false of every extended real; the variance
  divides by `128 − 0` (the integer zero of `ddof` converted), selected over a not-a-number filler by the test
  `128 − 0 > 0`, which holds.
-/
import proofs.«106388_j74500502716662_1_alg».proof.Proof.Gen.ReferenceIdeal
import proofs.«106388_j74500502716662_1_alg».proof.Proof.Layer
import proofs.«106388_j74500502716662_1_alg».proof.Proof.EdgeAgg
import proofs.«106388_j74500502716662_1_alg».proof.Proof.RefOps
import proofs.«106388_j74500502716662_1_alg».proof.Proof.RefStages
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.PureOps.Ideal.Laws

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen
open Cert.ReferenceIdeal.RefStages (splat splatCol matA rowA affineA softplusA rateA colA spreadA degA yA rowSumA meanA countA varA outA)

/-- The aggregated messages, from the message features and the edge list. -/
abbrev agg (h : FVec Ideal S100000x128 .f32) (ei : IVec S2x800000 32) : FVec Ideal S100000x128 .f32 :=
  Layer.edgeAgg gather_S100000x128_S800000x1_S800000x128_1_0_n_n_0_1_1128 scatter_S100000x128_S800000x1_S800000x128_1_0_0_1
    slices_S2x800000_S1x800000_0_0 slices_S2x800000_S1x800000_1_0 shapeCasts_S1x800000_S800000 bcast_S_S800000
    bcast_S800000_S800000x1_0 bcast_S_S100000x128 h ei

/-- An affine stage (`x·W + b`), index by index. -/
def affineArr (x : FVec Ideal S100000x128 .f32) (W : FVec Ideal S128x128 .f32) (b : FVec Ideal S128 .f32) :
    FVec Ideal S100000x128 .f32 := fun i =>
  Layer.affineRow (fun k => x (ix2 (i 0) k)) (fun k q => W (ix2 k q)) (fun q => b (ix1 q)) (i 1)

/-- The rate, index by index. -/
def rateArr (x : FVec Ideal S100000x128 .f32) (W : FVec Ideal S128x128 .f32) : FVec Ideal S100000x128 .f32 := fun i =>
  Layer.rateRow (fun k => x (ix2 (i 0) k)) (fun k q => W (ix2 k q)) (i 1)

/-- The layer's result as a function of the ten argument arrays, index by index. -/
def result (x : FVec Ideal S100000x128 .f32) (ei : IVec S2x800000 32) (deg : IVec S100000 32)
    (Wfc : FVec Ideal S128x128 .f32) (bfc : FVec Ideal S128 .f32) (Wrate Wrob : FVec Ideal S128x128 .f32)
    (brob lng lnb : FVec Ideal S128 .f32) : FVec Ideal S100000x128 .f32 := fun i =>
  Layer.normRow (fun k => rateArr x Wrate (ix2 (i 0) k)) (fun k => agg (affineArr x Wfc bfc) ei (ix2 (i 0) k))
    (fun k => affineArr x Wrob brob (ix2 (i 0) k)) (FloatOps.sitofp (F := Ideal) .f32 (deg (ix1 (i 0))))
    (fun q => lng (ix1 q)) (fun q => lnb (ix1 q)) (i 1)

/-- The stages composed are the layer's result: the rate, the two affine stages and the normalised quotient are the
    layer's row functions entry by entry, and the aggregation is applied to equal message features. -/
theorem stages_eq_result (x : FVec Ideal S100000x128 .f32) (ei : IVec S2x800000 32) (deg : IVec S100000 32)
    (Wfc : FVec Ideal S128x128 .f32) (bfc : FVec Ideal S128 .f32) (Wrate Wrob : FVec Ideal S128x128 .f32)
    (brob lng lnb : FVec Ideal S128 .f32) :
    outA (yA (rateA x Wrate) (agg (affineA x Wfc bfc) ei) (affineA x Wrob brob) (degA deg)) lng lnb
      = result x ei deg Wfc bfc Wrate Wrob brob lng lnb := by
  rw [RefStages.outA_yA_eq, RefStages.rateA_eq, RefStages.affineA_eq, RefStages.affineA_eq]
  rfl

section Fold

variable (V : Valuation τ sig (Elt Ideal))

set_option maxHeartbeats 8000000 in
set_option maxRecDepth 65536 in
/-- The fold of the reference's operations at the result buffer is the stages composed: each operation's result is
    the stage's own term of the operands it reads, and the edge aggregation's operations are the shared function's. -/
theorem after_result :
    after (RefOps.ops (F := Ideal)) V (main_v62 : DevRef τ sig)
      = outA (yA (rateA (V (main_arg0 : DevRef τ sig)) (V (main_arg5 : DevRef τ sig)))
            (agg (affineA (V (main_arg0 : DevRef τ sig)) (V (main_arg3 : DevRef τ sig)) (V (main_arg4 : DevRef τ sig)))
              (V (main_arg1 : DevRef τ sig)))
            (affineA (V (main_arg0 : DevRef τ sig)) (V (main_arg6 : DevRef τ sig)) (V (main_arg7 : DevRef τ sig)))
            (degA (V (main_arg2 : DevRef τ sig))))
          (V (main_arg8 : DevRef τ sig)) (V (main_arg9 : DevRef τ sig)) := by
  after_results_simp
  rfl

theorem after_arg0 : after (RefOps.ops (F := Ideal)) V (main_arg0 : DevRef τ sig) = V (main_arg0 : DevRef τ sig) := by
  after_results_simp
theorem after_arg1 : after (RefOps.ops (F := Ideal)) V (main_arg1 : DevRef τ sig) = V (main_arg1 : DevRef τ sig) := by
  after_results_simp
theorem after_arg2 : after (RefOps.ops (F := Ideal)) V (main_arg2 : DevRef τ sig) = V (main_arg2 : DevRef τ sig) := by
  after_results_simp
theorem after_arg3 : after (RefOps.ops (F := Ideal)) V (main_arg3 : DevRef τ sig) = V (main_arg3 : DevRef τ sig) := by
  after_results_simp
theorem after_arg4 : after (RefOps.ops (F := Ideal)) V (main_arg4 : DevRef τ sig) = V (main_arg4 : DevRef τ sig) := by
  after_results_simp
theorem after_arg5 : after (RefOps.ops (F := Ideal)) V (main_arg5 : DevRef τ sig) = V (main_arg5 : DevRef τ sig) := by
  after_results_simp
theorem after_arg6 : after (RefOps.ops (F := Ideal)) V (main_arg6 : DevRef τ sig) = V (main_arg6 : DevRef τ sig) := by
  after_results_simp
theorem after_arg7 : after (RefOps.ops (F := Ideal)) V (main_arg7 : DevRef τ sig) = V (main_arg7 : DevRef τ sig) := by
  after_results_simp
theorem after_arg8 : after (RefOps.ops (F := Ideal)) V (main_arg8 : DevRef τ sig) = V (main_arg8 : DevRef τ sig) := by
  after_results_simp
theorem after_arg9 : after (RefOps.ops (F := Ideal)) V (main_arg9 : DevRef τ sig) = V (main_arg9 : DevRef τ sig) := by
  after_results_simp

end Fold

/-- Every weakly fair execution of the reference terminates with its result at `result` of the arguments as launched,
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c =>
    ⟨((h c main_v62).trans (after_result _)).trans (stages_eq_result _ _ _ _ _ _ _ _ _ _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _)⟩)
    (RefOps.run_ops (F := Ideal) m ρ)

end Cert.ReferenceIdeal.RefValue

end
-- ==== Proof.KernelValue.lean ====
/-
  The kernel's result as one function of the ten argument arrays.

  The last boundary's contents at the result reference are what the second region's write-backs leave; the region finds
  the rate and `γ` as the first region left them, the aggregated messages as the host operations between the regions
  computed them from the first region's message features and the edge list, and the degrees and LayerNorm parameters
  reshaped.  The first region finds the node features and weights as launched and the two biases reshaped to one-row
  matrices.  Read through, index by index this is `Layer.normRow` of the node's rows — the very function the reference's
  run ends at, the reshapes being the identity on entries.
-/
import proofs.«106388_j74500502716662_1_alg».proof.Proof.Gen.KernelIdeal.Frame
import proofs.«106388_j74500502716662_1_alg».proof.Proof.HostReads
import proofs.«106388_j74500502716662_1_alg».proof.Proof.Region0
import proofs.«106388_j74500502716662_1_alg».proof.Proof.Region1
import proofs.«106388_j74500502716662_1_alg».proof.Proof.RefValue
import proofs.«106388_j74500502716662_1_alg».proof.Proof.LibRowOps
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.RegionValue Cert.KernelIdeal.HostReads

variable (m : (ℓ : Loc nD τ sig) → Buf (Elt Ideal) ℓ) (ρ : Dev nD → PrngReg)

/-! ## The first region's entry -/

theorem V1_x (c : Dev nD) : V1 m ρ c main_arg0 = m ((c : Thread nD τ).loc main_arg0) := pre_x (W0 m ρ c)
theorem V1_Wfc (c : Dev nD) : V1 m ρ c main_arg3 = m ((c : Thread nD τ).loc main_arg3) := pre_Wfc (W0 m ρ c)
theorem V1_Wrate (c : Dev nD) : V1 m ρ c main_arg5 = m ((c : Thread nD τ).loc main_arg5) := pre_Wrate (W0 m ρ c)
theorem V1_Wrob (c : Dev nD) : V1 m ρ c main_arg6 = m ((c : Thread nD τ).loc main_arg6) := pre_Wrob (W0 m ρ c)
theorem V1_bfc (c : Dev nD) : V1 m ρ c main_v0
    = fun i => shapeCast S1x128 (m ((c : Thread nD τ).loc main_arg4)) shapeCasts_S128_S1x128 i := pre_bfc (W0 m ρ c)
theorem V1_brob (c : Dev nD) : V1 m ρ c main_v1
    = fun i => shapeCast S1x128 (m ((c : Thread nD τ).loc main_arg7)) shapeCasts_S128_S1x128 i := pre_brob (W0 m ρ c)

/-! ## The first region's results -/

theorem hArr_eq (c : Dev nD) : hArr (V1 m ρ) c = Cert.ReferenceIdeal.RefValue.affineArr (m ((c : Thread nD τ).loc main_arg0)) (m ((c : Thread nD τ).loc main_arg3)) (m ((c : Thread nD τ).loc main_arg4)) := by
  funext i
  show Layer.affineRow (fun k => V1 m ρ c main_arg0 (ix2 (i 0) k)) (fun k q => V1 m ρ c main_arg3 (ix2 k q))
      (fun q => V1 m ρ c main_v0 (ix2 (0 : Fin 1) q)) (i 1)
    = Layer.affineRow (fun k => (m ((c : Thread nD τ).loc main_arg0)) (ix2 (i 0) k)) (fun k q => (m ((c : Thread nD τ).loc main_arg3)) (ix2 k q)) (fun q => (m ((c : Thread nD τ).loc main_arg4)) (ix1 q)) (i 1)
  rw [V1_x, V1_Wfc, V1_bfc]
  exact congrArg (fun b => Layer.affineRow _ _ b (i 1)) (funext fun q => shapeCast_a_1a_apply _ _ (0 : Fin 1) q)

theorem gamArr_eq (c : Dev nD) : gamArr (V1 m ρ) c = Cert.ReferenceIdeal.RefValue.affineArr (m ((c : Thread nD τ).loc main_arg0)) (m ((c : Thread nD τ).loc main_arg6)) (m ((c : Thread nD τ).loc main_arg7)) := by
  funext i
  show Layer.affineRow (fun k => V1 m ρ c main_arg0 (ix2 (i 0) k)) (fun k q => V1 m ρ c main_arg6 (ix2 k q))
      (fun q => V1 m ρ c main_v1 (ix2 (0 : Fin 1) q)) (i 1)
    = Layer.affineRow (fun k => (m ((c : Thread nD τ).loc main_arg0)) (ix2 (i 0) k)) (fun k q => (m ((c : Thread nD τ).loc main_arg6)) (ix2 k q)) (fun q => (m ((c : Thread nD τ).loc main_arg7)) (ix1 q)) (i 1)
  rw [V1_x, V1_Wrob, V1_brob]
  exact congrArg (fun b => Layer.affineRow _ _ b (i 1)) (funext fun q => shapeCast_a_1a_apply _ _ (0 : Fin 1) q)

theorem rateArr_eq (c : Dev nD) : rateArr (V1 m ρ) c = Cert.ReferenceIdeal.RefValue.rateArr (m ((c : Thread nD τ).loc main_arg0)) (m ((c : Thread nD τ).loc main_arg5)) := by
  funext i
  show Layer.rateRow (fun k => V1 m ρ c main_arg0 (ix2 (i 0) k)) (fun k q => V1 m ρ c main_arg5 (ix2 k q)) (i 1)
    = Layer.rateRow (fun k => (m ((c : Thread nD τ).loc main_arg0)) (ix2 (i 0) k)) (fun k q => (m ((c : Thread nD τ).loc main_arg5)) (ix2 k q)) (i 1)
  rw [V1_x, V1_Wrate]

/-! ## The second region's entry -/

theorem V3_rate (c : Dev nD) : V3 m ρ c main_v2_1 = Cert.ReferenceIdeal.RefValue.rateArr (m ((c : Thread nD τ).loc main_arg0)) (m ((c : Thread nD τ).loc main_arg5)) := by
  show after hostOps1 (W2 m ρ c) (Proc.devRef .tc main_v2_1) = _
  rw [mid_rate, show W2 m ρ c (Proc.devRef .tc main_v2_1) = (dat0 (V1 m ρ) c).arrAt 7 cfg0.N from W2_arr m ρ c 7,
    final0_7, rateArr_eq]

theorem V3_gam (c : Dev nD) : V3 m ρ c main_v2_2 = Cert.ReferenceIdeal.RefValue.affineArr (m ((c : Thread nD τ).loc main_arg0)) (m ((c : Thread nD τ).loc main_arg6)) (m ((c : Thread nD τ).loc main_arg7)) := by
  show after hostOps1 (W2 m ρ c) (Proc.devRef .tc main_v2_2) = _
  rw [mid_gam, show W2 m ρ c (Proc.devRef .tc main_v2_2) = (dat0 (V1 m ρ) c).arrAt 8 cfg0.N from W2_arr m ρ c 8,
    final0_8, gamArr_eq]

/-- The two programs' gather and scatter records are the same records. -/
theorem agg_eq (h : FVec Ideal S100000x128 .f32) (ei : IVec S2x800000 32) : HostReads.agg h ei = Cert.ReferenceIdeal.RefValue.agg h ei := rfl

theorem V3_agg (c : Dev nD) : V3 m ρ c main_v24 = Cert.ReferenceIdeal.RefValue.agg (Cert.ReferenceIdeal.RefValue.affineArr (m ((c : Thread nD τ).loc main_arg0)) (m ((c : Thread nD τ).loc main_arg3)) (m ((c : Thread nD τ).loc main_arg4))) (m ((c : Thread nD τ).loc main_arg1)) := by
  show after hostOps1 (W2 m ρ c) (Proc.devRef .tc main_v24) = _
  rw [mid_agg, show W2 m ρ c (Proc.devRef .tc main_v2_0) = (dat0 (V1 m ρ) c).arrAt 6 cfg0.N from W2_arr m ρ c 6,
    final0_6, hArr_eq,
    show W2 m ρ c (Proc.devRef .tc main_arg1) = (m ((c : Thread nD τ).loc main_arg1)) from (W2_of_ne m ρ c main_arg1 (by decide)).trans (pre_edges (W0 m ρ c)),
    agg_eq]

theorem V3_deg (c : Dev nD) : V3 m ρ c main_v25
    = fun i => shapeCast S100000x1 (m ((c : Thread nD τ).loc main_arg2)) shapeCasts_S100000_S100000x1 i := by
  show after hostOps1 (W2 m ρ c) (Proc.devRef .tc main_v25) = _
  rw [mid_deg, show W2 m ρ c (Proc.devRef .tc main_arg2) = (m ((c : Thread nD τ).loc main_arg2)) from (W2_of_ne m ρ c main_arg2 (by decide)).trans (pre_deg (W0 m ρ c))]

theorem V3_lng (c : Dev nD) : V3 m ρ c main_v26
    = fun i => shapeCast S1x128 (m ((c : Thread nD τ).loc main_arg8)) shapeCasts_S128_S1x128 i := by
  show after hostOps1 (W2 m ρ c) (Proc.devRef .tc main_v26) = _
  rw [mid_lng, show W2 m ρ c (Proc.devRef .tc main_arg8) = (m ((c : Thread nD τ).loc main_arg8)) from (W2_of_ne m ρ c main_arg8 (by decide)).trans (pre_lng (W0 m ρ c))]

theorem V3_lnb (c : Dev nD) : V3 m ρ c main_v27
    = fun i => shapeCast S1x128 (m ((c : Thread nD τ).loc main_arg9)) shapeCasts_S128_S1x128 i := by
  show after hostOps1 (W2 m ρ c) (Proc.devRef .tc main_v27) = _
  rw [mid_lnb, show W2 m ρ c (Proc.devRef .tc main_arg9) = (m ((c : Thread nD τ).loc main_arg9)) from (W2_of_ne m ρ c main_arg9 (by decide)).trans (pre_lnb (W0 m ρ c))]

/-! ## The result -/

/-- The last boundary's contents at the result reference: the reference's own function of the arguments as launched. -/
theorem result_eq (c : Dev nD) : W4 m ρ c (Proc.devRef .tc main_v28)
    = Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W4 m ρ c (Proc.devRef .tc main_v28) = (dat1 (V3 m ρ) c).arrAt 6 cfg1.N from W4_arr m ρ c 6, final1_6]
  funext i
  obtain ⟨p, q, rfl⟩ : ∃ (p : Fin 100000) (q : Fin 128), i = ix2 p q := ⟨i 0, i 1, eq_ix2 i⟩
  show Layer.normRow (fun k => V3 m ρ c main_v2_1 (ix2 p k)) (fun k => V3 m ρ c main_v24 (ix2 p k))
      (fun k => V3 m ρ c main_v2_2 (ix2 p k)) (FloatOps.sitofp (F := Ideal) .f32 (V3 m ρ c main_v25 (ix2 p (0 : Fin 1))))
      (fun q => V3 m ρ c main_v26 (ix2 (0 : Fin 1) q)) (fun q => V3 m ρ c main_v27 (ix2 (0 : Fin 1) q)) q
    = Layer.normRow (fun k => Cert.ReferenceIdeal.RefValue.rateArr (m ((c : Thread nD τ).loc main_arg0)) (m ((c : Thread nD τ).loc main_arg5)) (ix2 p k))
      (fun k => Cert.ReferenceIdeal.RefValue.agg (Cert.ReferenceIdeal.RefValue.affineArr (m ((c : Thread nD τ).loc main_arg0)) (m ((c : Thread nD τ).loc main_arg3)) (m ((c : Thread nD τ).loc main_arg4))) (m ((c : Thread nD τ).loc main_arg1)) (ix2 p k))
      (fun k => Cert.ReferenceIdeal.RefValue.affineArr (m ((c : Thread nD τ).loc main_arg0)) (m ((c : Thread nD τ).loc main_arg6)) (m ((c : Thread nD τ).loc main_arg7)) (ix2 p k))
      (FloatOps.sitofp (F := Ideal) .f32 ((m ((c : Thread nD τ).loc main_arg2)) (ix1 p))) (fun q => (m ((c : Thread nD τ).loc main_arg8)) (ix1 q)) (fun q => (m ((c : Thread nD τ).loc main_arg9)) (ix1 q)) q
  rw [V3_rate, V3_agg, V3_gam, V3_deg, V3_lng, V3_lnb]
  have hd : (fun i => shapeCast S100000x1 (m ((c : Thread nD τ).loc main_arg2)) shapeCasts_S100000_S100000x1 i) (ix2 p (0 : Fin 1)) = (m ((c : Thread nD τ).loc main_arg2)) (ix1 p) :=
    Cert.RowOps.shapeCast_a_a1_apply _ _ p (0 : Fin 1)
  have hg : (fun q : Fin 128 => (fun i => shapeCast S1x128 (m ((c : Thread nD τ).loc main_arg8)) shapeCasts_S128_S1x128 i) (ix2 (0 : Fin 1) q)) = fun q => (m ((c : Thread nD τ).loc main_arg8)) (ix1 q) :=
    funext fun q => shapeCast_a_1a_apply _ _ (0 : Fin 1) q
  have hb : (fun q : Fin 128 => (fun i => shapeCast S1x128 (m ((c : Thread nD τ).loc main_arg9)) shapeCasts_S128_S1x128 i) (ix2 (0 : Fin 1) q)) = fun q => (m ((c : Thread nD τ).loc main_arg9)) (ix1 q) :=
    funext fun q => shapeCast_a_1a_apply _ _ (0 : Fin 1) q
  rw [hd, hg, hb]

end Cert.KernelIdeal.Whole

end
-- ==== Proof.Claims.lean ====
/-
  The five claims.

  The two kernel programs run, end, fault nowhere and leave their arguments as launched: their frames.  The reference
  does too: its run, with the result forgotten.  The idealization rewrote nothing, so `preserves` has nothing to say.
  And at the extended reals both idealized programs end with ONE result: the kernel's run ends with the result array at
  the last boundary's contents, which read back through the two regions and the host operations between them are the
  reference's own function of the arguments (`Cert.KernelIdeal.Whole.result_eq`); the reference's run ends at that
  function of its arguments, which agree with the kernel's.  No step uses that the inputs are finite: the two programs
  differ only by operations that are the identity on every extended real.
-/
import proofs.«106388_j74500502716662_1_alg».proof.Defs
import proofs.«106388_j74500502716662_1_alg».proof.Proof.Gen.Kernel.Frame
import proofs.«106388_j74500502716662_1_alg».proof.Proof.Gen.KernelIdeal.Frame
import proofs.«106388_j74500502716662_1_alg».proof.Proof.Gen.Pre_finite_inputs
import proofs.«106388_j74500502716662_1_alg».proof.Proof.KernelRun
import proofs.«106388_j74500502716662_1_alg».proof.Proof.KernelValue
import proofs.«106388_j74500502716662_1_alg».proof.Proof.RefValue

noncomputable section

namespace Cert.Proof.LayerClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

theorem algebraic : Cert.algebraic_KernelIdeal_ReferenceIdeal := by
  intro m ρ m' ρ' _ hagree
  refine ⟨fun c => Cert.KernelIdeal.Gen.W4 m ρ c (Proc.devRef .tc Cert.KernelIdeal.main_v28),
    Cert.KernelIdeal.Gen.run_named (F := Ideal) m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]
  exact (Cert.KernelIdeal.Whole.result_eq m ρ c).symm

end Cert.Proof.LayerClaims

end
-- ==== Proof.lean ====
/-
  The certificate of the graph layer: the fused projection and normalisation kernels, with the edge aggregation between
  them on the host, against the all-host reference, over the extended reals.

  Proof/Layer.lean states each stage on one node's row; Proof/EdgeAgg.lean the edge aggregation both programs share.
  Proof/Region0.lean and Proof/Region1.lean read what the two kernel regions leave, block by block, as those row functions;
  Proof/HostReads.lean what the host operations around them leave; Proof/KernelRun.lean names the result array in the
  kernel's run, and Proof/KernelValue.lean reads it back to the arguments.  Proof/RefValue.lean reads the reference's run
  back to the same function.  Proof/Claims.lean proves the five claims from these; here they stand behind the witnesses of
  the programs' stated facts.
-/
import proofs.«106388_j74500502716662_1_alg».proof.Defs
import proofs.«106388_j74500502716662_1_alg».proof.Proof.Gen.Kernel
import proofs.«106388_j74500502716662_1_alg».proof.Proof.Gen.KernelIdeal
import proofs.«106388_j74500502716662_1_alg».proof.Proof.Gen.ReferenceIdeal
import proofs.«106388_j74500502716662_1_alg».proof.Proof.Gen.Pre_finite_inputs
import proofs.«106388_j74500502716662_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
